-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x128x8 : Shape := ⟨3, ![1024, 128, 8]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x128x8 : S_.BroadcastsInDim S1024x128x8 (![] : Fin 0 → Fin S1024x128x8.rank)
  reducesTo_S1024x128x8_S_d0_1_2 : S1024x128x8.ReducesTo [0, 1, 2] S_

variable [Facts]

def fn {F : FTy → Type} [FloatOps F] (main_arg0 : FVec F S256x1024 .f32) (main_arg1 : FVec F S1024x128x8 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x128x8 .f32 := Host.absf main_arg1
  let main_cst_0 : FVec F S_ .f32 := constant S_ .f32 0x7F800000#32
  let main_v5 : FVec F S1024x128x8 .f32 := broadcastInDim S1024x128x8 ![] bcast_S_S1024x128x8 main_cst_0
  let main_v6 : IVec S1024x128x8 1 := cmpf .olt main_v4 main_v5
  let main_c_1 : IVec S_ 1 := constantI S_ 1 1#1
  let main_v7 : IVec S_ 1 := (fun x v => Host.reduce IntOp.andi x v reducesTo_S1024x128x8_S_d0_1_2 h_S_) main_v6 main_c_1
  let main_v8 : IVec S_ 1 := andi main_v3 main_v7
  main_v8
-- ==== Kernel.lean ====
abbrev S256x1024 : Shape := ⟨2, ![256, 1024]⟩
abbrev S1024x128x8 : Shape := ⟨3, ![1024, 128, 8]⟩
abbrev S1024x8x128 : Shape := ⟨3, ![1024, 8, 128]⟩
abbrev S1024x1024 : Shape := ⟨2, ![1024, 1024]⟩
abbrev S256x8x128 : Shape := ⟨3, ![256, 8, 128]⟩
abbrev S256x128 : Shape := ⟨2, ![256, 128]⟩
abbrev S128x8x128 : Shape := ⟨3, ![128, 8, 128]⟩
abbrev S128x128 : Shape := ⟨2, ![128, 128]⟩
abbrev S128x128x128 : Shape := ⟨3, ![128, 128, 128]⟩
abbrev S128x1x128 : Shape := ⟨3, ![128, 1, 128]⟩
abbrev S1x128x128 : Shape := ⟨3, ![1, 128, 128]⟩
abbrev S256x1152 : Shape := ⟨2, ![256, 1152]⟩

abbrev nBuf : Space → Nat
  | .hbm => 8
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024x128x8, .f32⟩
  | .hbm, ⟨2, _⟩ => ⟨S1024x8x128, .f32⟩
  | .hbm, ⟨3, _⟩ => ⟨S1024x1024, .f32⟩
  | .hbm, ⟨4, _⟩ => ⟨S256x1024, .f32⟩
  | .hbm, ⟨5, _⟩ => ⟨S256x8x128, .f32⟩
  | .hbm, ⟨6, _⟩ => ⟨S256x128, .f32⟩
  | .hbm, ⟨7, _⟩ => ⟨S256x1152, .f32⟩
  | .local _ .vmem, ⟨0, _⟩ => ⟨S256x1024, .f32⟩
  | .local _ .vmem, ⟨1, _⟩ => ⟨S1024x1024, .f32⟩
  | .local _ .vmem, ⟨2, _⟩ => ⟨S256x1024, .f32⟩
  | .local _ .vmem, ⟨3, _⟩ => ⟨S128x8x128, .f32⟩
  | .local _ .vmem, ⟨4, _⟩ => ⟨S128x8x128, .f32⟩
  | .local _ .vmem, ⟨5, _⟩ => ⟨S128x8x128, .f32⟩
  | .local _ .vmem, ⟨6, _⟩ => ⟨S128x8x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 2], ![false, false]⟩

def k1_cond2 (i : grid1.Coords) : BitVec 1 :=
  let arg1 : BitVec 32 := BitVec.ofNat 32 (i 1).val
  let c1_i32 : BitVec 32 := 1#32
  let v101 : BitVec 1 := Scalar.cmpi .eq arg1 c1_i32
  let v102 : BitVec 32 := Scalar.extui v101
  let c0_i32_47 : BitVec 32 := 0#32
  let v103 : BitVec 1 := Scalar.cmpi .ne v102 c0_i32_47
  v103

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S1024x128x8_S1024x8x128_0_2_1 : S1024x128x8.Transposes [0, 2, 1] S1024x8x128
  shapeCasts_S1024x8x128_S1024x1024 : S1024x8x128.ShapeCasts S1024x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x8x128 : S256x1024.ShapeCasts S256x8x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x8x128_S128x1x128_0_0_0 : ∀ a, (![0, 0, 0] : Fin 3 → Nat) a + S128x1x128.size a ≤ S128x8x128.size a
  h_S128x1x128 : 0 < S128x1x128.numel
  shapeCasts_S128x1x128_S128x128 : S128x1x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  inb_S128x8x128_S128x1x128_0_1_0 : ∀ a, (![0, 1, 0] : Fin 3 → Nat) a + S128x1x128.size a ≤ S128x8x128.size a
  inb_S128x8x128_S128x1x128_0_2_0 : ∀ a, (![0, 2, 0] : Fin 3 → Nat) a + S128x1x128.size a ≤ S128x8x128.size a
  inb_S128x8x128_S128x1x128_0_3_0 : ∀ a, (![0, 3, 0] : Fin 3 → Nat) a + S128x1x128.size a ≤ S128x8x128.size a
  inb_S128x8x128_S128x1x128_0_4_0 : ∀ a, (![0, 4, 0] : Fin 3 → Nat) a + S128x1x128.size a ≤ S128x8x128.size a
  inb_S128x8x128_S128x1x128_0_5_0 : ∀ a, (![0, 5, 0] : Fin 3 → Nat) a + S128x1x128.size a ≤ S128x8x128.size a
  inb_S128x8x128_S128x1x128_0_6_0 : ∀ a, (![0, 6, 0] : Fin 3 → Nat) a + S128x1x128.size a ≤ S128x8x128.size a
  inb_S128x8x128_S128x1x128_0_7_0 : ∀ a, (![0, 7, 0] : Fin 3 → Nat) a + S128x1x128.size a ≤ S128x8x128.size a
  reduces_S128x128x128_S128x128 : S128x128x128.Reduces [1] S128x128
  concatenates_S256x1024_S256x128_S256x1152_d1 : Shape.Concatenates [S256x1024, S256x128] S256x1152 1
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8x128.size a ≤ S256x8x128.size a
  hwx1_0 : ∀ i : grid1.Coords, EltTy.bits .f32 = 32 ∨ (Rect.block (s := S256x8x128) S128x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8x128.size a ≤ S256x8x128.size a
  hwx1_1 : ∀ i : grid1.Coords, EltTy.bits .f32 = 32 ∨ (Rect.block (s := S256x8x128) S128x8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S256x128.size a
  hwx1_2 : ∀ i : grid1.Coords, EltTy.bits .f32 = 32 ∨ (Rect.block (s := S256x128) S128x128.size (cc1_transform_2 i) (hinb1_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S128x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x1024 : Shape := ⟨2, ![256, 1024]⟩
abbrev S1024x128x8 : Shape := ⟨3, ![1024, 128, 8]⟩
abbrev S1024x1024 : Shape := ⟨2, ![1024, 1024]⟩
abbrev S256x128x8 : Shape := ⟨3, ![256, 128, 8]⟩
abbrev S1x256x128x8 : Shape := ⟨4, ![1, 256, 128, 8]⟩
abbrev S256x1x128x8 : Shape := ⟨4, ![256, 1, 128, 8]⟩
abbrev S256x256x128x8 : Shape := ⟨4, ![256, 256, 128, 8]⟩
abbrev S_ : Shape := ⟨0, ![]⟩
abbrev S256x256x128 : Shape := ⟨3, ![256, 256, 128]⟩
abbrev S256x128 : Shape := ⟨2, ![256, 128]⟩
abbrev S256x1152 : Shape := ⟨2, ![256, 1152]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x128x8, .f32⟩
  | .hbm, ⟨2, _⟩ => ⟨S1024x1024, .f32⟩
  | .hbm, ⟨3, _⟩ => ⟨S256x1024, .f32⟩
  | .hbm, ⟨4, _⟩ => ⟨S256x128x8, .f32⟩
  | .hbm, ⟨5, _⟩ => ⟨S1x256x128x8, .f32⟩
  | .hbm, ⟨6, _⟩ => ⟨S256x1x128x8, .f32⟩
  | .hbm, ⟨7, _⟩ => ⟨S256x256x128x8, .f32⟩
  | .hbm, ⟨8, _⟩ => ⟨S256x256x128x8, .f32⟩
  | .hbm, ⟨9, _⟩ => ⟨S256x256x128x8, .f32⟩
  | .hbm, ⟨10, _⟩ => ⟨S256x256x128x8, .f32⟩
  | .hbm, ⟨11, _⟩ => ⟨S_, .f32⟩
  | .hbm, ⟨12, _⟩ => ⟨S256x256x128, .f32⟩
  | .hbm, ⟨13, _⟩ => ⟨S256x256x128, .f32⟩
  | .hbm, ⟨14, _⟩ => ⟨S256x256x128, .f32⟩
  | .hbm, ⟨15, _⟩ => ⟨S_, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S256x1152, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S1024x128x8_S1024x1024 : S1024x128x8.ShapeCasts S1024x1024
  shapeCasts_S256x1024_S256x128x8 : S256x1024.ShapeCasts S256x128x8
  bcast_S256x128x8_S1x256x128x8_1_2_3 : S256x128x8.BroadcastsInDim S1x256x128x8 (![1, 2, 3] : Fin 3 → Fin S1x256x128x8.rank)
  bcast_S256x128x8_S256x1x128x8_0_2_3 : S256x128x8.BroadcastsInDim S256x1x128x8 (![0, 2, 3] : Fin 3 → Fin S256x1x128x8.rank)
  bcast_S1x256x128x8_S256x256x128x8_0_1_2_3 : S1x256x128x8.BroadcastsInDim S256x256x128x8 (![0, 1, 2, 3] : Fin 4 → Fin S256x256x128x8.rank)
  bcast_S256x1x128x8_S256x256x128x8_0_1_2_3 : S256x1x128x8.BroadcastsInDim S256x256x128x8 (![0, 1, 2, 3] : Fin 4 → Fin S256x256x128x8.rank)
  reducesTo_S256x256x128x8_S256x256x128_d3 : S256x256x128x8.ReducesTo [3] S256x256x128
  h_S_ : 0 < S_.numel
  reducesTo_S256x256x128_S256x128_d1 : S256x256x128.ReducesTo [1] S256x128
  bcast_S_S256x128 : S_.BroadcastsInDim S256x128 (![] : Fin 0 → Fin S256x128.rank)
  concatenates_S256x1024_S256x128_S256x1152_d1 : Shape.Concatenates [S256x1024, S256x128] S256x1152 1
  dot_S256x1024_S1024x1024_S256x1024_1_0_0_1_n_n_wf : DotDims.WF S256x1024 S1024x1024 S256x1024 [1] [0] [0] [1] [] []

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

class Facts : Prop extends Facts₀ where

variable [Facts]
-- ==== Proof.K.R0.lean ====
import proofs.«122167_j66391604461943_1_alg».proof.Proof.Gen.Kernel.Launch
import proofs.«122167_j66391604461943_1_alg».proof.Proof.Gen.Kernel.Skeleton
import proofs.«122167_j66391604461943_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The matmul region (custom_call 0, pipeline 0) at arbitrary entry contents

The first kernel region of `@main` is a one-point pipeline over three whole-array windows: two inputs
(a 256x1024 left factor and a 1024x1024 right factor) and one 256x1024 output. Its body reads both
inputs whole, reads the output buffer (the value is never used) and stores the product of the two
inputs, accumulated into zero, over the whole output buffer. Everything below is stated at a parameter
`V`, the buffer contents when the region is entered. -/

-- membership of an index in a rectangle with extents 256, 1024 is decided structurally, one step per coordinate
set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- The block of window `w` at grid point `t`: the window's view of its array, read at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its block at every point, for any proof data over the entry
    contents whose body leaves that block in place: the window is an input, never cut and never idle, so
    what is in the buffer before the body is what the last fetch brought. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right factor's staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches -/

/-- The whole 256x1024 buffer as a rectangle (read of the left factor; read and write of the output). -/
abbrev r0_0 : Rect S256x1024 := Rect.unit (s := S256x1024) ![0, 0] S256x1024.size inb_S256x1024_S256x1024_0_0
/-- The whole 1024x1024 buffer as a rectangle (read of the right factor). -/
abbrev r0_1 : Rect S1024x1024 := Rect.unit (s := S1024x1024) ![0, 0] S1024x1024.size inb_S1024x1024_S1024x1024_0_0

/-! ## The output buffer after the body -/

/-- The output's staging buffer after the body, as a function of the two input blocks: one piece, the
    whole-buffer store of the product of the two whole-buffer reads. -/
def out0_2 (x0 : Vec F S256x1024 .f32) (x1 : Vec F S1024x1024 .f32) : Vec F S256x1024 .f32 :=
  View.canon [⟨r0_0, k0_pay1 (View.ld x0 r0_0) (View.ld x1 r0_1)⟩]

/-- The single stored rectangle is the whole buffer, so every index of the buffer lies in it. -/
theorem cover0_2 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-! ## The body's triple -/

set_option maxHeartbeats 1000000 in
/-- The kernel body on whole staging memrefs: with the inputs at contents `x0`, `x1` and the output at
    anything, it runs to a state with the inputs unchanged and the output at `out0_2 x0 x1`. The read of
    the output buffer needs only that the buffer is owned; its value is dropped. -/
theorem sound_kernel0 (c : Dev nD) (E : Set ℕ) (i : grid0.Coords)
    (arg0 : Memref sig .tc .vmem S256x1024 .f32) (harg0 : arg0.IsWhole)
    (arg1 : Memref sig .tc .vmem S1024x1024 .f32) (harg1 : arg1.IsWhole)
    (arg2 : Memref sig .tc .vmem S256x1024 .f32) (harg2 : arg2.IsWhole)
    (x0 : Vec F S256x1024 .f32) (x1 : Vec F S1024x1024 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays at the entry contents; after the body each input's
    buffer at its block and the output's at `out0_2` of the two input blocks; the invariant that leaves the
    scoped rest and the generator register alone; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block before the body, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is entered with at point `t`: the invariant, the core's debt, and the three staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the
    invariant and the debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.R1Runs.lean ====
/- The pairwise call (the second kernel call of the program) on its 2 × 2 grid: its windows' blocks, the two
   conditionals of its body decided over the grid, where its output block is idle, the memrefs the body is called
   with, and what the call owns beside its windows. Everything is stated at a parameter `V`: the buffers' contents
   when the call is entered. -/
import proofs.«122167_j66391604461943_1_alg».proof.Proof.Gen.Kernel.Launch
import proofs.«122167_j66391604461943_1_alg».proof.Proof.Gen.Kernel.Skeleton
import proofs.«122167_j66391604461943_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the three windows of the pairwise call -/

/-- The block window `w` shows at grid point `t`, read off the array's contents at the call's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window (block index (i,0,0)): its staging buffer holds its block at every point. It is moved only
    when i changes; in between the block index is the same, so the buffer still holds the right block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column-block window (block index (j,0,0)): the same statement; this one is moved at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals of the body, as functions of the grid point

  The grid is 2 × 2 and the point number t enumerates (i, j) = (t / 2, t % 2). -/

/-- The first conditional tests j = 0 (written as the body computes it: compare, widen, compare with zero). -/
abbrev cond1_0 (i : grid1.Coords) : Prop := (Scalar.cmpi .ne (Scalar.extui (Scalar.cmpi .eq (BitVec.ofNat 32 (i 1).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional tests j = 1. -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where a window is idle -/

/-- The two inputs are live everywhere. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where j = 0 the output block is idle: nothing is stored into it there, -/
theorem idleAt1_2_A : ∀ t : Fin cfg1.N, cond1_0 (grid1.coords t) → ¬cond1_1 (grid1.coords t) → cfg1.idle 2 (grid1.coords t) = true := by decide +kernel
/-- and it is not written back there. -/
theorem noFlush1_2_A : ∀ t : Fin cfg1.N, cond1_0 (grid1.coords t) → ¬cond1_1 (grid1.coords t) → (cfg1.win 2).flush t = false := by decide +kernel
/-- Where j = 1 the output block is live: the body stores the finished row sums into it. -/
theorem liveAt1_2_C : ∀ t : Fin cfg1.N, ¬cond1_0 (grid1.coords t) → cond1_1 (grid1.coords t) → cfg1.idle 2 (grid1.coords t) = false := by decide +kernel

/-! ## The memrefs the body is called with -/

/-- A fixed 128 × 128 view through which the output block's contents are stated (any whole buffer of that shape serves). -/
abbrev VO1_2 : View sig .tc .vmem S128x128 .f32 := (Memref.whole cc1_stg2_0 : Memref sig .tc .vmem S128x128 .f32).view
/-- The current buffer of each window at point `t`, and that it is a whole buffer. -/
abbrev ms1_0 (t : Fin cfg1.N) : Memref sig .tc .vmem S128x8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
/-- The accumulator: a whole 128 × 128 buffer of the call's own, kept from one point to the next. -/
abbrev scM1_0 : Memref sig .tc .vmem S128x128 .f32 := Memref.whole cc1_scratch0
/-- The same as a view: the accumulator's contents are stated through it. -/
abbrev VS1_0 : View sig .tc .vmem S128x128 .f32 := scM1_0.view

/-- What the call owns besides its windows: the three buffers of the matmul call (untouched here, each at some
    contents), the accumulator at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
            ∗ (∃ f : Buf (Elt F) ((c : Thread nD τ).loc cc0_stg1_0), ((c : Thread nD τ).loc cc0_stg1_0) ↦{fullShare} f)
            ∗ (∃ f : Buf (Elt F) ((c : Thread nD τ).loc cc0_stg2_0), ((c : Thread nD τ).loc cc0_stg2_0) ↦{fullShare} f)
            ∗ (∃ d, owns (c : Thread nD τ) scM1_0 fullShare d)) ∗ (∃ r, prngReg c r)) := by
  unfold Pipeline.ΦA; rw [scopedRest1_eq]; simp only [scM1_0, owns_whole]; try rfl

end Cert.Kernel.Frm

end
-- ==== Proof.K.R1RunA.lean ====
/- The pairwise call's body at a grid point with j = 0, run symbolically as a whole. -/
import proofs.«122167_j66391604461943_1_alg».proof.Proof.K.R1Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where j = 0 (first conditional taken, second not). On whole memrefs — the two input blocks at
    contents `x0`, `x1`, the output buffer at contents `xi2` that the body leaves alone, the accumulator at anything —
    the body runs to a continuation that holds the inputs and the output buffer as they were and the accumulator
    with the pieces `LS0` written: first the zero fill, then zero plus the row sums of exp(−Σₖ|x0ₖ − x1ₖ|).
    The piece lists are part of the data: they are read off the symbolic run. -/
noncomputable def kernelRun1_A (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : cond1_0 i) (hc1 : ¬cond1_1 i)
    (x0 : Vec F S128x8x128 .f32) (x1 : Vec F S128x8x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨[], ?_, fun xi2 E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frm

end
-- ==== Proof.K.R1RunC.lean ====
/- The pairwise call's body at a grid point with j = 1, run symbolically as a whole. -/
import proofs.«122167_j66391604461943_1_alg».proof.Proof.K.R1RunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where j = 1 (first conditional not taken, second taken). The accumulator enters at the contents
    `xs0` the point before left; the body adds this point's row sums to it (pieces `LS0`) and stores the
    accumulator minus one into the output buffer (pieces `L2`), which may enter at anything. -/
noncomputable def kernelRun1_C (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, ?_, fun E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frm

end
-- ==== Proof.K.R1.lean ====
/- The pairwise call (the second kernel call): what its output buffer and its accumulator hold after each grid point,
   the call's proof data at the entry contents `V`, and the body obligation. -/
import proofs.«122167_j66391604461943_1_alg».proof.Proof.K.R1RunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output buffer and in the accumulator -/

/-- Where j = 0 nothing is stored into the output buffer: an empty piece list read back over junk. Nothing consults
    this value: at these points the block is neither written back nor read by the next point. -/
def out1_A_2 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : cond1_0 i) (hc1 : ¬cond1_1 i)
    (x0 : Vec F S128x8x128 .f32) (x1 : Vec F S128x8x128 .f32) : Vec F S128x128 .f32 :=
  VO1_2.read (Elt F) (VO1_2.writes (Elt F) VO1_2.junk (kernelRun1_A c i arg2 harg2 arg3 harg3 arg4 harg4 arg5 harg5 hc0 hc1 x0 x1).1)

/-- Where j = 0 the accumulator's pieces (the zero fill, then the first partial sums) cover all of it: each is the whole 128 × 128 rectangle. -/
theorem scover1_A_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : cond1_0 i) (hc1 : ¬cond1_1 i)
    (x0 : Vec F S128x8x128 .f32) (x1 : Vec F S128x8x128 .f32) (y : S128x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S128x128.size (by sl_kernel_rfl) y

/-- The accumulator after a point with j = 0: its pieces read back. -/
def sout1_A_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : cond1_0 i) (hc1 : ¬cond1_1 i)
    (x0 : Vec F S128x8x128 .f32) (x1 : Vec F S128x8x128 .f32) : Vec F S128x128 .f32 :=
  VS1_0.read (Elt F) (VS1_0.writes (Elt F) VS1_0.junk (kernelRun1_A c i arg2 harg2 arg3 harg3 arg4 harg4 arg5 harg5 hc0 hc1 x0 x1).2.1)

/-- Where j = 1 the one store into the output buffer covers it. -/
theorem cover1_C_2 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) (y : S128x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x128.size (by sl_kernel_rfl) y

/-- The output buffer after a point with j = 1: the finished row sums minus one. -/
def out1_C_2 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) : Vec F S128x128 .f32 :=
  VO1_2.read (Elt F) (VO1_2.writes (Elt F) VO1_2.junk (kernelRun1_C c i arg2 harg2 arg3 harg3 arg4 harg4 arg5 harg5 hc0 hc1 x0 x1 xs0).1)

/-- Where j = 1 the accumulator's one piece (old contents plus this point's sums) covers it. -/
theorem scover1_C_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) (y : S128x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x128.size (by sl_kernel_rfl) y

/-- The accumulator after a point with j = 1. -/
def sout1_C_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) : Vec F S128x128 .f32 :=
  VS1_0.read (Elt F) (VS1_0.writes (Elt F) VS1_0.junk (kernelRun1_C c i arg2 harg2 arg3 harg3 arg4 harg4 arg5 harg5 hc0 hc1 x0 x1 xs0).2.1)

/-! ## Point by point -/

/-- No point has both j = 0 and j = 1, -/
theorem not_cond1_1_of_even (t : Fin cfg1.N) (h0 : t.val % 2 = 0) : ¬cond1_1 (grid1.coords t) :=
  fun h => by have := (hcond1_1 t).mp h; omega
/-- and none has neither. -/
theorem not_cond1_0_of_odd (t : Fin cfg1.N) (h1 : t.val % 2 = 1) : ¬cond1_0 (grid1.coords t) :=
  fun h => by have := (hcond1_0 t).mp h; omega

/-- The pair (output buffer, accumulator) after the body at point `n`. At an even point (j = 0) the accumulator is
    restarted, so nothing earlier matters; at an odd point (j = 1) the body continues from the accumulator the point
    before left. By recursion on the point. -/
def outsAt1 (c : Dev nD) : (n : ℕ) → n < cfg1.N → Vec F S128x128 .f32 × Vec F S128x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (not_cond1_1_of_even ⟨0, hn⟩ (Nat.zero_mod _)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (not_cond1_1_of_even ⟨0, hn⟩ (Nat.zero_mod _)) (iblk1 V c 0 ⟨0, hn⟩) (iblk1 V c 1 ⟨0, hn⟩))
  | n + 1, hn =>
    if h0 : (n + 1) % 2 = 0 then
      if h1 : (n + 1) % 2 = 1 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 2 = 1 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        False.elim (by omega)

/-- At an even point: the j = 0 case's contents. -/
theorem outsAt1_A (c : Dev nD) (t : Fin cfg1.N) (h0 : t.val % 2 = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (not_cond1_1_of_even t h0) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (not_cond1_1_of_even t h0) (iblk1 V c 0 t) (iblk1 V c 1 t)) := by
  obtain ⟨n, hn⟩ := t
  cases n with
  | zero => exact rfl
  | succ n => exact (dif_pos h0).trans ((dif_neg (by (try dsimp only at h0); omega)).trans rfl)

/-- At an odd point: the j = 1 case's contents, over the accumulator the point before left. -/
theorem outsAt1_C (c : Dev nD) (t : Fin cfg1.N) (h1 : t.val % 2 = 1) :
    outsAt1 V c t.val t.isLt = (out1_C_2 c (grid1.coords t) (ms1_0 t) (hs1_0 t) (ms1_1 t) (hs1_1 t) (ms1_2 t) (hs1_2 t) scM1_0 (Memref.isWhole_whole _) (not_cond1_0_of_odd t h1) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (not_cond1_0_of_odd t h1) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h1); omega)
  | succ n => exact (dif_neg (by (try dsimp only at h1); omega)).trans ((dif_pos h1).trans rfl)

/-! ## The invariant between points -/

/-- What the call owns beside its windows before point `n`: before the first point everything at some contents; later
    the matmul call's three buffers still at some contents, the accumulator at exactly what point `n - 1` left in it,
    and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
            ∗ (∃ f : Buf (Elt F) ((c : Thread nD τ).loc cc0_stg1_0), ((c : Thread nD τ).loc cc0_stg1_0) ↦{fullShare} f)
            ∗ (∃ f : Buf (Elt F) ((c : Thread nD τ).loc cc0_stg2_0), ((c : Thread nD τ).loc cc0_stg2_0) ↦{fullShare} f)
            ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
            ∗ (∃ f : Buf (Elt F) ((c : Thread nD τ).loc cc0_stg1_0), ((c : Thread nD τ).loc cc0_stg1_0) ↦{fullShare} f)
            ∗ (∃ f : Buf (Elt F) ((c : Thread nD τ).loc cc0_stg2_0), ((c : Thread nD τ).loc cc0_stg2_0) ↦{fullShare} f)
            ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
            ∗ (∃ f : Buf (Elt F) ((c : Thread nD τ).loc cc0_stg1_0), ((c : Thread nD τ).loc cc0_stg1_0) ↦{fullShare} f)
            ∗ (∃ f : Buf (Elt F) ((c : Thread nD τ).loc cc0_stg2_0), ((c : Thread nD τ).loc cc0_stg2_0) ↦{fullShare} f)
            ∗ owns (c : Thread nD τ) scM1_0 fullShare ((outsAt1 V c (n - 1) (by omega)).2)) ∗ (∃ r, prngReg c r)) := by
  cases n with
  | zero => exact absurd rfl hz
  | succ n => rfl

/-! ## The proof data of the pairwise call -/

/-- The arrays as the call finds them; after the body each input buffer still at its block and the output buffer at
    `outsAt1`'s first component; the invariant `PhiS1`; nothing owed. Both input windows read the same array, so
    its full share is dealt between them: one half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := fun
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold their blocks. At an even point (j = 0) the accumulator is taken at
    anything (at the first point from the entry invariant, later from what the point before left, forgotten), the output
    buffer is handed through untouched; at an odd point (j = 1) the accumulator is taken at what the point before left
    and the output buffer at anything. Either way the accumulator goes back into the invariant at this point's
    contents, because its pieces cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · rw [Dat.leavesExact_idle (dat1 V c) 2 t (idleAt1_2_A t ((hcond1_0 t).mpr h0) (not_cond1_1_of_even t h0)) (noFlush1_2_A t ((hcond1_0 t).mpr h0) (not_cond1_1_of_even t h0))]
    rw [outsAt1_A V c t h0]
    unfold sout1_A_0; (try dsimp only)
    by_cases hz : t.val = 0
    · rw [PhiS1_castSucc V c t, PhiS1_zero V c _ _ hz, PhiA1_eq]
      iintro ⟨⟨⟨Ha, Hb, Hc, HS0⟩, Hg⟩, Ho, ⟨%d0, H0⟩, ⟨%d1, H1⟩, ⟨%d2, H2⟩⟩
      iapply ((kernelRun1_A c (grid1.coords t) _ _ _ _ _ _ _ _ ((hcond1_0 t).mpr h0) (not_cond1_1_of_even t h0) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Ha, Hb, Hc, HS0⟩, Hg⟩, Ho, ⟨%d0, H0⟩, ⟨%d1, H1⟩, ⟨%d2, H2⟩⟩
      iapply ((kernelRun1_A c (grid1.coords t) _ _ _ _ _ _ _ _ ((hcond1_0 t).mpr h0) (not_cond1_1_of_even t h0) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have h1 : t.val % 2 = 1 := by omega
    have hz : t.val ≠ 0 := by omega
    rw [show (dat1 V c).leavesExact 2 t = owns (c : Thread nD τ) (ms1_2 t) fullShare ((dat1 V c).after 2 t) from by
      unfold Dat.leavesExact; rw [liveAt1_2_C t (not_cond1_0_of_odd t h1) ((hcond1_1 t).mpr h1)], after1_2]
    rw [outsAt1_C V c t h1]
    unfold out1_C_2 sout1_C_0; (try dsimp only)
    rw [PhiS1_castSucc V c t, PhiS1_pos V c _ _ hz]
    iintro ⟨⟨⟨Ha, Hb, Hc, HS0⟩, Hg⟩, Ho, ⟨%d0, H0⟩, ⟨%d1, H1⟩, ⟨%d2, H2⟩⟩
    iapply ((kernelRun1_C c (grid1.coords t) _ _ _ _ _ _ _ _ (not_cond1_0_of_odd t h1) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Ha Hb Hc HS0 Hg]
    · isplitl [Ha Hb Hc HS0]
      · isplitl [Ha]; · iexact Ha
        isplitl [Hb]; · iexact Hb
        isplitl [Hc]; · iexact Hc
        unfold owns; iexists _; isplitr
        swap; · iexact HS0
        ipureintro; exact View.read_writes_of_cover _ _ _ _ _ (scover1_C_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)

/-- The body obligation in the library's form, at every point. -/
theorem body_obligation1 (c : Dev nD) : BodyObligation (dat1 (F := F) V c) (defs₀ (F := F)) Variants.none () Set.univ := fun t => by
  rw [bigSep_W1, bigSep_W1]
  exact sound_body1 V c t

/-- What the call is handed at entry is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry form back: the accumulator's contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, HS0⟩, Hg⟩
  isplitl [Ha Hb Hc HS0]
  · isplitl [Ha]; · iexact Ha
    isplitl [Hb]; · iexact Hb
    isplitl [Hc]; · iexact Hc
    iexists _; iexact HS0
  iexact Hg

/-- In particular after the last point. -/
theorem hout1 (c : Dev nD) : (dat1 V c).Φ (Fin.last cfg1.N) ⊢ Pipeline.ΦA spec1 c :=
  Phi1_out V c _ (by rw [Fin.val_last]; have : cfg1.N = 4 := N_1; omega)

end Cert.Kernel.Frm

end
-- ==== Proof.K.Shared.lean ====
import proofs.«122167_j66391604461943_1_alg».proof.Proof.Gen.Kernel.Launch
import proofs.«122167_j66391604461943_1_alg».proof.Proof.Gen.Kernel.Skeleton
import proofs.«122167_j66391604461943_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # One array behind two windows

The pairwise region reads one array, the projected samples, through two input windows (the query tile and the key
tile) and writes the feature array through a third. So its three windows stand on two buffers. The core's full
share of the shared buffer is dealt between the two reading windows, a half each; both halves carry the same
contents, and together they are the full share again. -/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the pairwise region's windows: the projected samples and the feature array. -/
theorem arrImage1 : (Finset.univ : Finset (Fin 3)).image (Pipeline.arrRef spec1) = {main_v3, main_v4} := by decide

/-- The two buffers, each whole at the full share at contents `V`, are the region's three arrays at contents `Fw`
    that read `V` at each window's buffer: the shared buffer's full share is its two halves. -/
theorem arrBufs1_eq {c : Dev nD} (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (Fw : (w : Fin cfg1.W) → Buf (Elt F) ((cfg1.win w).arr.view.loc (c : Thread nD τ)))
    (hF : ∀ w, Fw w = V (Pipeline.arrRef spec1 w)) :
    (Pipeline.arrBufs spec1 c V : sProp 𝕄) = dat.arrays Fw := by
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_pos (by decide)]
  unfold Pipeline.arrBufs Dat.arrays
  rw [arrImage1, bigSep_W1, bigSep_insert (by decide), bigSep_singleton]
  rw [(arr_whole1 0).set_eq_univ, (arr_whole1 2).set_eq_univ, s0, s1, s2, hF 0, hF 1, hF 2]
  rw [BI.Entails.antisymm (pointsTo_share (ℓ := (c : Thread nD τ).loc main_v3) (I := Finset.univ) (f := V main_v3) (PosShare.mem_left_op_right fullShare)).1
    (pointsTo_share (PosShare.mem_left_op_right fullShare)).2]
  exact (sep_assoc.antisymm sep_assoc')

/-- A core's unscoped buffers at contents `V` are the two buffers behind the region's windows and the rest. -/
theorem unscopedBufs_split1 (c : Dev nD) (V : (b : Ref sig .tc) → Buf (Elt F) ((c : Thread nD τ).loc b)) :
    (unscopedBufs c V : sProp 𝕄) = iprop(Pipeline.arrBufs spec1 c V ∗ Pipeline.unscopedRest spec1 c V) := by
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- ENTRY: the core's unscoped buffers at `V` are the region's arrays at the proof data's entry contents, read off `V`,
    and the unscoped rest. -/
theorem arrays_of_unscopedBufs1 {c : Dev nD} (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (hA : ∀ w, dat.A w = V (Pipeline.arrRef spec1 w)) :
    (unscopedBufs c V : sProp 𝕄) ⊢ iprop(dat.arrays dat.A ∗ Pipeline.unscopedRest spec1 c V) := by
  rw [unscopedBufs_split1 c V, arrBufs1_eq dat hq0 hq1 V dat.A hA]

/-- EXIT: the region's arrays at contents `Fw` and the unscoped rest at `V` are the core's unscoped buffers at any
    valuation `V'` that has the arrays at `Fw` and agrees with `V` off them. -/
theorem unscopedBufs_of_arrays1 {c : Dev nD} (dat : Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w))
    (hrest : ∀ b, b ∉ Finset.univ.image (Pipeline.arrRef spec1) → V' b = V b) :
    iprop(dat.arrays Fw ∗ Pipeline.unscopedRest spec1 c V) ⊢ (unscopedBufs c V' : sProp 𝕄) := by
  rw [unscopedBufs_split1 c V', arrBufs1_eq dat hq0 hq1 V' Fw hF]
  refine sep_mono .rfl (Entails.of_eq ?_)
  unfold Pipeline.unscopedRest
  exact bigSep_congr fun b hb => by rw [hrest b (Finset.mem_sdiff.mp hb).2]

end Cert.Kernel.Frm

end
-- ==== Proof.K.Run.lean ====
import proofs.«122167_j66391604461943_1_alg».proof.Proof.Gen.Kernel.Launch
import proofs.«122167_j66391604461943_1_alg».proof.Proof.Gen.Kernel.Skeleton
import proofs.«122167_j66391604461943_1_alg».proof.Proof.Gen.Kernel.Points
import proofs.«122167_j66391604461943_1_alg».proof.Proof.K.R0
import proofs.«122167_j66391604461943_1_alg».proof.Proof.K.R1
import proofs.«122167_j66391604461943_1_alg».proof.Proof.K.Shared
import proofs.«122167_j66391604461943_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: two kernel regions among three stretches of host operations

@main transposes and flattens the second input, runs the matmul region, reshapes its result into samples × kernel
dimensions × features, runs the pairwise region on it, and concatenates the first input with the feature array. The
buffer contents at every boundary are a fold from the launch memory: a host stretch applies its operations; the
matmul region leaves its output array at what its one write-back left; the pairwise region leaves the feature array
at what its write-backs left, its input array (read through two windows) as it found it. Each region is entered from
"every unscoped buffer at the boundary's contents" and left at the next boundary's; the launch composes them, and the
final memory is read against the last boundary's contents. -/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (the matmul region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the matmul region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the pairwise region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the pairwise region's exit: the feature array at what the write-backs leave, every other buffer as entered
    (the projected samples are only read). -/
def W4 (c : Dev nD) : Valuation τ sig (Elt F) :=
  Function.update (W3 m c) (Proc.devRef .tc main_v4) ((dat1 (V3 m) c).arrAt 2 cfg1.N)
theorem W4_out (c : Dev nD) : W4 m c (Proc.devRef .tc main_v4) = (dat1 (V3 m) c).arrAt 2 cfg1.N := by
  unfold W4; exact Function.update_self _ _ _
theorem W4_of_ne (c : Dev nD) (b : Ref sig .tc) (hb : b ≠ main_v4) :
    W4 m c (Proc.devRef .tc b) = W3 m c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m c b
/-- After the last host stretch: what the final memory holds. -/
abbrev W5 : Dev nD → Valuation τ sig (Elt F) := fun c => StableHlo.after hostOps2 (W4 m c)

/-- At the pairwise region's exit each of its arrays holds what the pipeline leaves: the two reading windows' array as
    entered (an input array is never written), the feature array its write-backs. -/
theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of_ne m c main_v3 (by decide)).symm
  | ⟨1, _⟩ => exact (((dat1 (V3 m) c).arrAt_in 1 rfl _).trans (A_eq1 (V3 m) c 1)).trans (W4_of_ne m c main_v3 (by decide)).symm
  | ⟨2, _⟩ => exact (W4_out m c).symm
theorem hrest1 (c : Dev nD) : ∀ b, b ∉ Finset.univ.image (Pipeline.arrRef spec1) → V4 m c b = V3 m c b :=
  fun b hb => W4_of_ne m c b fun e => hb (Finset.mem_image.mpr ⟨2, Finset.mem_univ _, e.symm⟩)

/-! ## The arguments end as launched

No host operation and no region writes an argument: the fold at an argument's buffer walks back to the launch memory. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The matmul region over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise region over the thread state: entered from every unscoped buffer at `W3`, left at `W4`. The projected
    samples' buffer is dealt to the two reading windows a half share each at the entry and made whole again at the
    exit; the feature array goes in at the full share and comes back at what the write-backs left. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := arrays_of_unscopedBufs1 (pdats m 1 c) rfl rfl (V3 m c) (fun w => A_eq1 (V3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (V3 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last (Pipeline.pin (pcfgs (F := F)) adm' 1).N) ⊢ Pipeline.ΦA spec1 c := hout1 (V3 m) c
    unfold Pipeline.ΦA at h
    iintro HΦ
    ihave H := h $$ HΦ
    icases H with ⟨Hr, Hp⟩
    isplitl [Hp]; · iexact Hp
    isplitr; · iempintro
    iexact Hr
  hexit c := by
    have hjoin := unscopedBufs_of_arrays1 (pdats m 1 c) rfl rfl (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, at any float instance: the run, read at the two argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_main m ρ)

/-- The run read at the result and at the two arguments: what the value claim takes. -/
theorem run_value : θ_run defs (onTc (τ := τ) (main (F := F))) ⟨m, fun _ => 0, ρ⟩ (fun r => ∀ c : Dev nD,
      r.2.mem ((c.tc : Thread nD τ).loc main_v5) = W5 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v5 (by decide)),
     (h c _ (mem_uc main_arg0 (by decide))).trans (W5_main_arg0 m c),
     (h c _ (mem_uc main_arg1 (by decide))).trans (W5_main_arg1 m c)⟩) (run_main m ρ)

end Cert.Kernel.Frm

end
-- ==== Proof.KI.R0.lean ====
import proofs.«122167_j66391604461943_1_alg».proof.Proof.Gen.KernelIdeal.Launch
import proofs.«122167_j66391604461943_1_alg».proof.Proof.Gen.KernelIdeal.Skeleton
import proofs.«122167_j66391604461943_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The matmul region (custom_call 0, pipeline 0) at arbitrary entry contents

The first kernel region of `@main` is a one-point pipeline over three whole-array windows: two inputs
(a 256x1024 left factor and a 1024x1024 right factor) and one 256x1024 output. Its body reads both
inputs whole, reads the output buffer (the value is never used) and stores the product of the two
inputs, accumulated into zero, over the whole output buffer. Everything below is stated at a parameter
`V`, the buffer contents when the region is entered. -/

-- membership of an index in a rectangle with extents 256, 1024 is decided structurally, one step per coordinate
set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- The block of window `w` at grid point `t`: the window's view of its array, read at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its block at every point, for any proof data over the entry
    contents whose body leaves that block in place: the window is an input, never cut and never idle, so
    what is in the buffer before the body is what the last fetch brought. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right factor's staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches -/

/-- The whole 256x1024 buffer as a rectangle (read of the left factor; read and write of the output). -/
abbrev r0_0 : Rect S256x1024 := Rect.unit (s := S256x1024) ![0, 0] S256x1024.size inb_S256x1024_S256x1024_0_0
/-- The whole 1024x1024 buffer as a rectangle (read of the right factor). -/
abbrev r0_1 : Rect S1024x1024 := Rect.unit (s := S1024x1024) ![0, 0] S1024x1024.size inb_S1024x1024_S1024x1024_0_0

/-! ## The output buffer after the body -/

/-- The output's staging buffer after the body, as a function of the two input blocks: one piece, the
    whole-buffer store of the product of the two whole-buffer reads. -/
def out0_2 (x0 : Vec F S256x1024 .f32) (x1 : Vec F S1024x1024 .f32) : Vec F S256x1024 .f32 :=
  View.canon [⟨r0_0, k0_pay1 (View.ld x0 r0_0) (View.ld x1 r0_1)⟩]

/-- The single stored rectangle is the whole buffer, so every index of the buffer lies in it. -/
theorem cover0_2 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-! ## The body's triple -/

set_option maxHeartbeats 1000000 in
/-- The kernel body on whole staging memrefs: with the inputs at contents `x0`, `x1` and the output at
    anything, it runs to a state with the inputs unchanged and the output at `out0_2 x0 x1`. The read of
    the output buffer needs only that the buffer is owned; its value is dropped. -/
theorem sound_kernel0 (c : Dev nD) (E : Set ℕ) (i : grid0.Coords)
    (arg0 : Memref sig .tc .vmem S256x1024 .f32) (harg0 : arg0.IsWhole)
    (arg1 : Memref sig .tc .vmem S1024x1024 .f32) (harg1 : arg1.IsWhole)
    (arg2 : Memref sig .tc .vmem S256x1024 .f32) (harg2 : arg2.IsWhole)
    (x0 : Vec F S256x1024 .f32) (x1 : Vec F S1024x1024 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays at the entry contents; after the body each input's
    buffer at its block and the output's at `out0_2` of the two input blocks; the invariant that leaves the
    scoped rest and the generator register alone; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block before the body, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is entered with at point `t`: the invariant, the core's debt, and the three staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the
    invariant and the debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.R1Runs.lean ====
/- The pairwise call (the second kernel call of the program) on its 2 × 2 grid: its windows' blocks, the two
   conditionals of its body decided over the grid, where its output block is idle, the memrefs the body is called
   with, and what the call owns beside its windows. Everything is stated at a parameter `V`: the buffers' contents
   when the call is entered. -/
import proofs.«122167_j66391604461943_1_alg».proof.Proof.Gen.KernelIdeal.Launch
import proofs.«122167_j66391604461943_1_alg».proof.Proof.Gen.KernelIdeal.Skeleton
import proofs.«122167_j66391604461943_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the three windows of the pairwise call -/

/-- The block window `w` shows at grid point `t`, read off the array's contents at the call's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window (block index (i,0,0)): its staging buffer holds its block at every point. It is moved only
    when i changes; in between the block index is the same, so the buffer still holds the right block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column-block window (block index (j,0,0)): the same statement; this one is moved at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals of the body, as functions of the grid point

  The grid is 2 × 2 and the point number t enumerates (i, j) = (t / 2, t % 2). -/

/-- The first conditional tests j = 0 (written as the body computes it: compare, widen, compare with zero). -/
abbrev cond1_0 (i : grid1.Coords) : Prop := (Scalar.cmpi .ne (Scalar.extui (Scalar.cmpi .eq (BitVec.ofNat 32 (i 1).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional tests j = 1. -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where a window is idle -/

/-- The two inputs are live everywhere. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where j = 0 the output block is idle: nothing is stored into it there, -/
theorem idleAt1_2_A : ∀ t : Fin cfg1.N, cond1_0 (grid1.coords t) → ¬cond1_1 (grid1.coords t) → cfg1.idle 2 (grid1.coords t) = true := by decide +kernel
/-- and it is not written back there. -/
theorem noFlush1_2_A : ∀ t : Fin cfg1.N, cond1_0 (grid1.coords t) → ¬cond1_1 (grid1.coords t) → (cfg1.win 2).flush t = false := by decide +kernel
/-- Where j = 1 the output block is live: the body stores the finished row sums into it. -/
theorem liveAt1_2_C : ∀ t : Fin cfg1.N, ¬cond1_0 (grid1.coords t) → cond1_1 (grid1.coords t) → cfg1.idle 2 (grid1.coords t) = false := by decide +kernel

/-! ## The memrefs the body is called with -/

/-- A fixed 128 × 128 view through which the output block's contents are stated (any whole buffer of that shape serves). -/
abbrev VO1_2 : View sig .tc .vmem S128x128 .f32 := (Memref.whole cc1_stg2_0 : Memref sig .tc .vmem S128x128 .f32).view
/-- The current buffer of each window at point `t`, and that it is a whole buffer. -/
abbrev ms1_0 (t : Fin cfg1.N) : Memref sig .tc .vmem S128x8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
/-- The accumulator: a whole 128 × 128 buffer of the call's own, kept from one point to the next. -/
abbrev scM1_0 : Memref sig .tc .vmem S128x128 .f32 := Memref.whole cc1_scratch0
/-- The same as a view: the accumulator's contents are stated through it. -/
abbrev VS1_0 : View sig .tc .vmem S128x128 .f32 := scM1_0.view

/-- What the call owns besides its windows: the three buffers of the matmul call (untouched here, each at some
    contents), the accumulator at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
            ∗ (∃ f : Buf (Elt F) ((c : Thread nD τ).loc cc0_stg1_0), ((c : Thread nD τ).loc cc0_stg1_0) ↦{fullShare} f)
            ∗ (∃ f : Buf (Elt F) ((c : Thread nD τ).loc cc0_stg2_0), ((c : Thread nD τ).loc cc0_stg2_0) ↦{fullShare} f)
            ∗ (∃ d, owns (c : Thread nD τ) scM1_0 fullShare d)) ∗ (∃ r, prngReg c r)) := by
  unfold Pipeline.ΦA; rw [scopedRest1_eq]; simp only [scM1_0, owns_whole]; try rfl

end Cert.KernelIdeal.Frm

end
-- ==== Proof.KI.R1RunA.lean ====
/- The pairwise call's body at a grid point with j = 0, run symbolically as a whole. -/
import proofs.«122167_j66391604461943_1_alg».proof.Proof.KI.R1Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where j = 0 (first conditional taken, second not). On whole memrefs — the two input blocks at
    contents `x0`, `x1`, the output buffer at contents `xi2` that the body leaves alone, the accumulator at anything —
    the body runs to a continuation that holds the inputs and the output buffer as they were and the accumulator
    with the pieces `LS0` written: first the zero fill, then zero plus the row sums of exp(−Σₖ|x0ₖ − x1ₖ|).
    The piece lists are part of the data: they are read off the symbolic run. -/
noncomputable def kernelRun1_A (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : cond1_0 i) (hc1 : ¬cond1_1 i)
    (x0 : Vec F S128x8x128 .f32) (x1 : Vec F S128x8x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨[], ?_, fun xi2 E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frm

end
-- ==== Proof.KI.R1RunC.lean ====
/- The pairwise call's body at a grid point with j = 1, run symbolically as a whole. -/
import proofs.«122167_j66391604461943_1_alg».proof.Proof.KI.R1RunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where j = 1 (first conditional not taken, second taken). The accumulator enters at the contents
    `xs0` the point before left; the body adds this point's row sums to it (pieces `LS0`) and stores the
    accumulator minus one into the output buffer (pieces `L2`), which may enter at anything. -/
noncomputable def kernelRun1_C (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, ?_, fun E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frm

end
-- ==== Proof.KI.R1.lean ====
/- The pairwise call (the second kernel call): what its output buffer and its accumulator hold after each grid point,
   the call's proof data at the entry contents `V`, and the body obligation. -/
import proofs.«122167_j66391604461943_1_alg».proof.Proof.KI.R1RunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output buffer and in the accumulator -/

/-- Where j = 0 nothing is stored into the output buffer: an empty piece list read back over junk. Nothing consults
    this value: at these points the block is neither written back nor read by the next point. -/
def out1_A_2 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : cond1_0 i) (hc1 : ¬cond1_1 i)
    (x0 : Vec F S128x8x128 .f32) (x1 : Vec F S128x8x128 .f32) : Vec F S128x128 .f32 :=
  VO1_2.read (Elt F) (VO1_2.writes (Elt F) VO1_2.junk (kernelRun1_A c i arg2 harg2 arg3 harg3 arg4 harg4 arg5 harg5 hc0 hc1 x0 x1).1)

/-- Where j = 0 the accumulator's pieces (the zero fill, then the first partial sums) cover all of it: each is the whole 128 × 128 rectangle. -/
theorem scover1_A_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : cond1_0 i) (hc1 : ¬cond1_1 i)
    (x0 : Vec F S128x8x128 .f32) (x1 : Vec F S128x8x128 .f32) (y : S128x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S128x128.size (by sl_kernel_rfl) y

/-- The accumulator after a point with j = 0: its pieces read back. -/
def sout1_A_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : cond1_0 i) (hc1 : ¬cond1_1 i)
    (x0 : Vec F S128x8x128 .f32) (x1 : Vec F S128x8x128 .f32) : Vec F S128x128 .f32 :=
  VS1_0.read (Elt F) (VS1_0.writes (Elt F) VS1_0.junk (kernelRun1_A c i arg2 harg2 arg3 harg3 arg4 harg4 arg5 harg5 hc0 hc1 x0 x1).2.1)

/-- Where j = 1 the one store into the output buffer covers it. -/
theorem cover1_C_2 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) (y : S128x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x128.size (by sl_kernel_rfl) y

/-- The output buffer after a point with j = 1: the finished row sums minus one. -/
def out1_C_2 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) : Vec F S128x128 .f32 :=
  VO1_2.read (Elt F) (VO1_2.writes (Elt F) VO1_2.junk (kernelRun1_C c i arg2 harg2 arg3 harg3 arg4 harg4 arg5 harg5 hc0 hc1 x0 x1 xs0).1)

/-- Where j = 1 the accumulator's one piece (old contents plus this point's sums) covers it. -/
theorem scover1_C_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) (y : S128x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x128.size (by sl_kernel_rfl) y

/-- The accumulator after a point with j = 1. -/
def sout1_C_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) : Vec F S128x128 .f32 :=
  VS1_0.read (Elt F) (VS1_0.writes (Elt F) VS1_0.junk (kernelRun1_C c i arg2 harg2 arg3 harg3 arg4 harg4 arg5 harg5 hc0 hc1 x0 x1 xs0).2.1)

/-! ## Point by point -/

/-- No point has both j = 0 and j = 1, -/
theorem not_cond1_1_of_even (t : Fin cfg1.N) (h0 : t.val % 2 = 0) : ¬cond1_1 (grid1.coords t) :=
  fun h => by have := (hcond1_1 t).mp h; omega
/-- and none has neither. -/
theorem not_cond1_0_of_odd (t : Fin cfg1.N) (h1 : t.val % 2 = 1) : ¬cond1_0 (grid1.coords t) :=
  fun h => by have := (hcond1_0 t).mp h; omega

/-- The pair (output buffer, accumulator) after the body at point `n`. At an even point (j = 0) the accumulator is
    restarted, so nothing earlier matters; at an odd point (j = 1) the body continues from the accumulator the point
    before left. By recursion on the point. -/
def outsAt1 (c : Dev nD) : (n : ℕ) → n < cfg1.N → Vec F S128x128 .f32 × Vec F S128x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (not_cond1_1_of_even ⟨0, hn⟩ (Nat.zero_mod _)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (not_cond1_1_of_even ⟨0, hn⟩ (Nat.zero_mod _)) (iblk1 V c 0 ⟨0, hn⟩) (iblk1 V c 1 ⟨0, hn⟩))
  | n + 1, hn =>
    if h0 : (n + 1) % 2 = 0 then
      if h1 : (n + 1) % 2 = 1 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 2 = 1 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        False.elim (by omega)

/-- At an even point: the j = 0 case's contents. -/
theorem outsAt1_A (c : Dev nD) (t : Fin cfg1.N) (h0 : t.val % 2 = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (not_cond1_1_of_even t h0) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (not_cond1_1_of_even t h0) (iblk1 V c 0 t) (iblk1 V c 1 t)) := by
  obtain ⟨n, hn⟩ := t
  cases n with
  | zero => exact rfl
  | succ n => exact (dif_pos h0).trans ((dif_neg (by (try dsimp only at h0); omega)).trans rfl)

/-- At an odd point: the j = 1 case's contents, over the accumulator the point before left. -/
theorem outsAt1_C (c : Dev nD) (t : Fin cfg1.N) (h1 : t.val % 2 = 1) :
    outsAt1 V c t.val t.isLt = (out1_C_2 c (grid1.coords t) (ms1_0 t) (hs1_0 t) (ms1_1 t) (hs1_1 t) (ms1_2 t) (hs1_2 t) scM1_0 (Memref.isWhole_whole _) (not_cond1_0_of_odd t h1) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (not_cond1_0_of_odd t h1) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h1); omega)
  | succ n => exact (dif_neg (by (try dsimp only at h1); omega)).trans ((dif_pos h1).trans rfl)

/-! ## The invariant between points -/

/-- What the call owns beside its windows before point `n`: before the first point everything at some contents; later
    the matmul call's three buffers still at some contents, the accumulator at exactly what point `n - 1` left in it,
    and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
            ∗ (∃ f : Buf (Elt F) ((c : Thread nD τ).loc cc0_stg1_0), ((c : Thread nD τ).loc cc0_stg1_0) ↦{fullShare} f)
            ∗ (∃ f : Buf (Elt F) ((c : Thread nD τ).loc cc0_stg2_0), ((c : Thread nD τ).loc cc0_stg2_0) ↦{fullShare} f)
            ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
            ∗ (∃ f : Buf (Elt F) ((c : Thread nD τ).loc cc0_stg1_0), ((c : Thread nD τ).loc cc0_stg1_0) ↦{fullShare} f)
            ∗ (∃ f : Buf (Elt F) ((c : Thread nD τ).loc cc0_stg2_0), ((c : Thread nD τ).loc cc0_stg2_0) ↦{fullShare} f)
            ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
            ∗ (∃ f : Buf (Elt F) ((c : Thread nD τ).loc cc0_stg1_0), ((c : Thread nD τ).loc cc0_stg1_0) ↦{fullShare} f)
            ∗ (∃ f : Buf (Elt F) ((c : Thread nD τ).loc cc0_stg2_0), ((c : Thread nD τ).loc cc0_stg2_0) ↦{fullShare} f)
            ∗ owns (c : Thread nD τ) scM1_0 fullShare ((outsAt1 V c (n - 1) (by omega)).2)) ∗ (∃ r, prngReg c r)) := by
  cases n with
  | zero => exact absurd rfl hz
  | succ n => rfl

/-! ## The proof data of the pairwise call -/

/-- The arrays as the call finds them; after the body each input buffer still at its block and the output buffer at
    `outsAt1`'s first component; the invariant `PhiS1`; nothing owed. Both input windows read the same array, so
    its full share is dealt between them: one half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := fun
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold their blocks. At an even point (j = 0) the accumulator is taken at
    anything (at the first point from the entry invariant, later from what the point before left, forgotten), the output
    buffer is handed through untouched; at an odd point (j = 1) the accumulator is taken at what the point before left
    and the output buffer at anything. Either way the accumulator goes back into the invariant at this point's
    contents, because its pieces cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · rw [Dat.leavesExact_idle (dat1 V c) 2 t (idleAt1_2_A t ((hcond1_0 t).mpr h0) (not_cond1_1_of_even t h0)) (noFlush1_2_A t ((hcond1_0 t).mpr h0) (not_cond1_1_of_even t h0))]
    rw [outsAt1_A V c t h0]
    unfold sout1_A_0; (try dsimp only)
    by_cases hz : t.val = 0
    · rw [PhiS1_castSucc V c t, PhiS1_zero V c _ _ hz, PhiA1_eq]
      iintro ⟨⟨⟨Ha, Hb, Hc, HS0⟩, Hg⟩, Ho, ⟨%d0, H0⟩, ⟨%d1, H1⟩, ⟨%d2, H2⟩⟩
      iapply ((kernelRun1_A c (grid1.coords t) _ _ _ _ _ _ _ _ ((hcond1_0 t).mpr h0) (not_cond1_1_of_even t h0) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Ha, Hb, Hc, HS0⟩, Hg⟩, Ho, ⟨%d0, H0⟩, ⟨%d1, H1⟩, ⟨%d2, H2⟩⟩
      iapply ((kernelRun1_A c (grid1.coords t) _ _ _ _ _ _ _ _ ((hcond1_0 t).mpr h0) (not_cond1_1_of_even t h0) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have h1 : t.val % 2 = 1 := by omega
    have hz : t.val ≠ 0 := by omega
    rw [show (dat1 V c).leavesExact 2 t = owns (c : Thread nD τ) (ms1_2 t) fullShare ((dat1 V c).after 2 t) from by
      unfold Dat.leavesExact; rw [liveAt1_2_C t (not_cond1_0_of_odd t h1) ((hcond1_1 t).mpr h1)], after1_2]
    rw [outsAt1_C V c t h1]
    unfold out1_C_2 sout1_C_0; (try dsimp only)
    rw [PhiS1_castSucc V c t, PhiS1_pos V c _ _ hz]
    iintro ⟨⟨⟨Ha, Hb, Hc, HS0⟩, Hg⟩, Ho, ⟨%d0, H0⟩, ⟨%d1, H1⟩, ⟨%d2, H2⟩⟩
    iapply ((kernelRun1_C c (grid1.coords t) _ _ _ _ _ _ _ _ (not_cond1_0_of_odd t h1) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Ha Hb Hc HS0 Hg]
    · isplitl [Ha Hb Hc HS0]
      · isplitl [Ha]; · iexact Ha
        isplitl [Hb]; · iexact Hb
        isplitl [Hc]; · iexact Hc
        unfold owns; iexists _; isplitr
        swap; · iexact HS0
        ipureintro; exact View.read_writes_of_cover _ _ _ _ _ (scover1_C_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)

/-- The body obligation in the library's form, at every point. -/
theorem body_obligation1 (c : Dev nD) : BodyObligation (dat1 (F := F) V c) (defs₀ (F := F)) Variants.none () Set.univ := fun t => by
  rw [bigSep_W1, bigSep_W1]
  exact sound_body1 V c t

/-- What the call is handed at entry is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry form back: the accumulator's contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, HS0⟩, Hg⟩
  isplitl [Ha Hb Hc HS0]
  · isplitl [Ha]; · iexact Ha
    isplitl [Hb]; · iexact Hb
    isplitl [Hc]; · iexact Hc
    iexists _; iexact HS0
  iexact Hg

/-- In particular after the last point. -/
theorem hout1 (c : Dev nD) : (dat1 V c).Φ (Fin.last cfg1.N) ⊢ Pipeline.ΦA spec1 c :=
  Phi1_out V c _ (by rw [Fin.val_last]; have : cfg1.N = 4 := N_1; omega)

end Cert.KernelIdeal.Frm

end
-- ==== Proof.KI.Shared.lean ====
import proofs.«122167_j66391604461943_1_alg».proof.Proof.Gen.KernelIdeal.Launch
import proofs.«122167_j66391604461943_1_alg».proof.Proof.Gen.KernelIdeal.Skeleton
import proofs.«122167_j66391604461943_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # One array behind two windows

The pairwise region reads one array, the projected samples, through two input windows (the query tile and the key
tile) and writes the feature array through a third. So its three windows stand on two buffers. The core's full
share of the shared buffer is dealt between the two reading windows, a half each; both halves carry the same
contents, and together they are the full share again. -/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the pairwise region's windows: the projected samples and the feature array. -/
theorem arrImage1 : (Finset.univ : Finset (Fin 3)).image (Pipeline.arrRef spec1) = {main_v3, main_v4} := by decide

/-- The two buffers, each whole at the full share at contents `V`, are the region's three arrays at contents `Fw`
    that read `V` at each window's buffer: the shared buffer's full share is its two halves. -/
theorem arrBufs1_eq {c : Dev nD} (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (Fw : (w : Fin cfg1.W) → Buf (Elt F) ((cfg1.win w).arr.view.loc (c : Thread nD τ)))
    (hF : ∀ w, Fw w = V (Pipeline.arrRef spec1 w)) :
    (Pipeline.arrBufs spec1 c V : sProp 𝕄) = dat.arrays Fw := by
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_pos (by decide)]
  unfold Pipeline.arrBufs Dat.arrays
  rw [arrImage1, bigSep_W1, bigSep_insert (by decide), bigSep_singleton]
  rw [(arr_whole1 0).set_eq_univ, (arr_whole1 2).set_eq_univ, s0, s1, s2, hF 0, hF 1, hF 2]
  rw [BI.Entails.antisymm (pointsTo_share (ℓ := (c : Thread nD τ).loc main_v3) (I := Finset.univ) (f := V main_v3) (PosShare.mem_left_op_right fullShare)).1
    (pointsTo_share (PosShare.mem_left_op_right fullShare)).2]
  exact (sep_assoc.antisymm sep_assoc')

/-- A core's unscoped buffers at contents `V` are the two buffers behind the region's windows and the rest. -/
theorem unscopedBufs_split1 (c : Dev nD) (V : (b : Ref sig .tc) → Buf (Elt F) ((c : Thread nD τ).loc b)) :
    (unscopedBufs c V : sProp 𝕄) = iprop(Pipeline.arrBufs spec1 c V ∗ Pipeline.unscopedRest spec1 c V) := by
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- ENTRY: the core's unscoped buffers at `V` are the region's arrays at the proof data's entry contents, read off `V`,
    and the unscoped rest. -/
theorem arrays_of_unscopedBufs1 {c : Dev nD} (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (hA : ∀ w, dat.A w = V (Pipeline.arrRef spec1 w)) :
    (unscopedBufs c V : sProp 𝕄) ⊢ iprop(dat.arrays dat.A ∗ Pipeline.unscopedRest spec1 c V) := by
  rw [unscopedBufs_split1 c V, arrBufs1_eq dat hq0 hq1 V dat.A hA]

/-- EXIT: the region's arrays at contents `Fw` and the unscoped rest at `V` are the core's unscoped buffers at any
    valuation `V'` that has the arrays at `Fw` and agrees with `V` off them. -/
theorem unscopedBufs_of_arrays1 {c : Dev nD} (dat : Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w))
    (hrest : ∀ b, b ∉ Finset.univ.image (Pipeline.arrRef spec1) → V' b = V b) :
    iprop(dat.arrays Fw ∗ Pipeline.unscopedRest spec1 c V) ⊢ (unscopedBufs c V' : sProp 𝕄) := by
  rw [unscopedBufs_split1 c V', arrBufs1_eq dat hq0 hq1 V' Fw hF]
  refine sep_mono .rfl (Entails.of_eq ?_)
  unfold Pipeline.unscopedRest
  exact bigSep_congr fun b hb => by rw [hrest b (Finset.mem_sdiff.mp hb).2]

end Cert.KernelIdeal.Frm

end
-- ==== Proof.KI.Run.lean ====
import proofs.«122167_j66391604461943_1_alg».proof.Proof.Gen.KernelIdeal.Launch
import proofs.«122167_j66391604461943_1_alg».proof.Proof.Gen.KernelIdeal.Skeleton
import proofs.«122167_j66391604461943_1_alg».proof.Proof.Gen.KernelIdeal.Points
import proofs.«122167_j66391604461943_1_alg».proof.Proof.KI.R0
import proofs.«122167_j66391604461943_1_alg».proof.Proof.KI.R1
import proofs.«122167_j66391604461943_1_alg».proof.Proof.KI.Shared
import proofs.«122167_j66391604461943_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: two kernel regions among three stretches of host operations

@main transposes and flattens the second input, runs the matmul region, reshapes its result into samples × kernel
dimensions × features, runs the pairwise region on it, and concatenates the first input with the feature array. The
buffer contents at every boundary are a fold from the launch memory: a host stretch applies its operations; the
matmul region leaves its output array at what its one write-back left; the pairwise region leaves the feature array
at what its write-backs left, its input array (read through two windows) as it found it. Each region is entered from
"every unscoped buffer at the boundary's contents" and left at the next boundary's; the launch composes them, and the
final memory is read against the last boundary's contents. -/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (the matmul region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the matmul region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the pairwise region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the pairwise region's exit: the feature array at what the write-backs leave, every other buffer as entered
    (the projected samples are only read). -/
def W4 (c : Dev nD) : Valuation τ sig (Elt F) :=
  Function.update (W3 m c) (Proc.devRef .tc main_v4) ((dat1 (V3 m) c).arrAt 2 cfg1.N)
theorem W4_out (c : Dev nD) : W4 m c (Proc.devRef .tc main_v4) = (dat1 (V3 m) c).arrAt 2 cfg1.N := by
  unfold W4; exact Function.update_self _ _ _
theorem W4_of_ne (c : Dev nD) (b : Ref sig .tc) (hb : b ≠ main_v4) :
    W4 m c (Proc.devRef .tc b) = W3 m c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m c b
/-- After the last host stretch: what the final memory holds. -/
abbrev W5 : Dev nD → Valuation τ sig (Elt F) := fun c => StableHlo.after hostOps2 (W4 m c)

/-- At the pairwise region's exit each of its arrays holds what the pipeline leaves: the two reading windows' array as
    entered (an input array is never written), the feature array its write-backs. -/
theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of_ne m c main_v3 (by decide)).symm
  | ⟨1, _⟩ => exact (((dat1 (V3 m) c).arrAt_in 1 rfl _).trans (A_eq1 (V3 m) c 1)).trans (W4_of_ne m c main_v3 (by decide)).symm
  | ⟨2, _⟩ => exact (W4_out m c).symm
theorem hrest1 (c : Dev nD) : ∀ b, b ∉ Finset.univ.image (Pipeline.arrRef spec1) → V4 m c b = V3 m c b :=
  fun b hb => W4_of_ne m c b fun e => hb (Finset.mem_image.mpr ⟨2, Finset.mem_univ _, e.symm⟩)

/-! ## The arguments end as launched

No host operation and no region writes an argument: the fold at an argument's buffer walks back to the launch memory. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The matmul region over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise region over the thread state: entered from every unscoped buffer at `W3`, left at `W4`. The projected
    samples' buffer is dealt to the two reading windows a half share each at the entry and made whole again at the
    exit; the feature array goes in at the full share and comes back at what the write-backs left. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := arrays_of_unscopedBufs1 (pdats m 1 c) rfl rfl (V3 m c) (fun w => A_eq1 (V3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (V3 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last (Pipeline.pin (pcfgs (F := F)) adm' 1).N) ⊢ Pipeline.ΦA spec1 c := hout1 (V3 m) c
    unfold Pipeline.ΦA at h
    iintro HΦ
    ihave H := h $$ HΦ
    icases H with ⟨Hr, Hp⟩
    isplitl [Hp]; · iexact Hp
    isplitr; · iempintro
    iexact Hr
  hexit c := by
    have hjoin := unscopedBufs_of_arrays1 (pdats m 1 c) rfl rfl (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, at any float instance: the run, read at the two argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_main m ρ)

/-- The run read at the result and at the two arguments: what the value claim takes. -/
theorem run_value : θ_run defs (onTc (τ := τ) (main (F := F))) ⟨m, fun _ => 0, ρ⟩ (fun r => ∀ c : Dev nD,
      r.2.mem ((c.tc : Thread nD τ).loc main_v5) = W5 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v5 (by decide)),
     (h c _ (mem_uc main_arg0 (by decide))).trans (W5_main_arg0 m c),
     (h c _ (mem_uc main_arg1 (by decide))).trans (W5_main_arg1 m c)⟩) (run_main m ρ)

end Cert.KernelIdeal.Frm

end
-- ==== Proof.Spec.lean ====
/-
  The specification both programs meet, over the extended reals.

  Inputs: x : [256, 1024] and T : [1024, 128, 8].  The projection of sample b onto feature o and kernel dimension k is
      proj x T b o k = ∑ n, x[b, n] · T[n, o, k].
  The L1 distance between samples a and b in feature o sums |proj b o k − proj a o k| over the eight kernel dimensions
  (|u| read as max u (−u), the extended reals' absolute value), and the similarity feature of sample a is
      feat x T a o = (∑ b, exp (− dist a b o)) − 1,
  the self term exp 0 = 1 taken off.  The constant one is kept as its float word: it is the same word in both programs.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shapes of the two inputs and of the feature array. -/
abbrev SX : Shape := ⟨2, ![256, 1024]⟩
abbrev ST : Shape := ⟨3, ![1024, 128, 8]⟩
abbrev SC : Shape := ⟨2, ![256, 128]⟩

/-- Sample `b` projected onto feature `o`, kernel dimension `k`: a row of `x` against a column of the flattened `T`. -/
def proj (x : SX.Idx → EReal) (T : ST.Idx → EReal) (b : Fin 256) (o : Fin 128) (k : Fin 8) : EReal :=
  ∑ n : Fin 1024, x (ix2 b n) * T (ix3 n o k)

/-- The absolute value on the extended reals, as both programs compute it. -/
def eabs (u : EReal) : EReal := max u (-u)

/-- The L1 distance of samples `a` and `b` in feature `o`, over the kernel dimensions (the reference's order of subtraction). -/
def dist (x : SX.Idx → EReal) (T : ST.Idx → EReal) (a b : Fin 256) (o : Fin 128) : EReal :=
  ∑ k : Fin 8, eabs (proj x T b o k - proj x T a o k)

/-- The similarity feature of sample `a` in feature `o`: the sum over all samples of exp (− distance), less one. -/
def feat (x : SX.Idx → EReal) (T : ST.Idx → EReal) (a : Fin 256) (o : Fin 128) : EReal :=
  (∑ b : Fin 256, Ideal.exp (-(dist x T a b o))) - Ideal.ofBits .f32 0x3F800000#32

/-- The feature array. -/
def featArr (x : SX.Idx → EReal) (T : ST.Idx → EReal) : SC.Idx → EReal := fun i => feat x T (i 0) (i 1)

/-- One tile's contribution in the kernel's arrangement: samples `128·J + b`, `b < 128`, each term exp (0 − (0 + |·| + … + |·|))
    with the subtraction the other way round and the eight terms added left to right from zero. -/
def tileSum (x : SX.Idx → EReal) (T : ST.Idx → EReal) (a : Fin 256) (J : Fin 2) (o : Fin 128) : EReal :=
  ∑ b : Fin 128,
    Ideal.exp (0 - ((((((((0 + eabs (proj x T a o 0 - proj x T ⟨128 * J.val + b.val, by omega⟩ o 0))
      + eabs (proj x T a o 1 - proj x T ⟨128 * J.val + b.val, by omega⟩ o 1))
      + eabs (proj x T a o 2 - proj x T ⟨128 * J.val + b.val, by omega⟩ o 2))
      + eabs (proj x T a o 3 - proj x T ⟨128 * J.val + b.val, by omega⟩ o 3))
      + eabs (proj x T a o 4 - proj x T ⟨128 * J.val + b.val, by omega⟩ o 4))
      + eabs (proj x T a o 5 - proj x T ⟨128 * J.val + b.val, by omega⟩ o 5))
      + eabs (proj x T a o 6 - proj x T ⟨128 * J.val + b.val, by omega⟩ o 6))
      + eabs (proj x T a o 7 - proj x T ⟨128 * J.val + b.val, by omega⟩ o 7)))

/-- The kernel's arrangement of the feature: zero, plus the first tile's sum, plus the second tile's, less one. -/
def featK (x : SX.Idx → EReal) (T : ST.Idx → EReal) (a : Fin 256) (o : Fin 128) : EReal :=
  ((0 + tileSum x T a 0 o) + tileSum x T a 1 o) - Ideal.ofBits .f32 0x3F800000#32

end Cert.Spec

end
-- ==== Proof.KI.Step.lean ====
/-
  The kernel's payloads read at an index, at the ideal instance.

  The pairwise stage loads, from each of its two input blocks [128, 8, 128], the eight row slices [128, 1, 128] (one per
  kernel dimension k), and for each k forms |xi[a, k, o] − xj[b, k, o]| over (a, b, o) by dropping the unit axis, putting
  the first operand's rows on the leading axis and the second operand's rows on the middle axis, and broadcasting both
  to [128, 128, 128]. The eight terms are added from zero, negated by subtraction from zero, exponentiated, summed over
  the middle axis b, and added to the accumulator. Read at (a, o) this is
      acc[a, o] + ∑ b, exp (0 − (0 + |xi[a,0,o] − xj[b,0,o]| + … + |xi[a,7,o] − xj[b,7,o]|)).
  The closing payload subtracts the float one, the opening one is the zero splat, and the matmul payload at (b, c) is
  ∑ n, x0[b, n] · x1[n, c] (the format changes are the identity on extended reals, the accumulator is zero).
-/
import proofs.«122167_j66391604461943_1_alg».proof.Proof.Gen.KernelIdeal.Skeleton
import proofs.«122167_j66391604461943_1_alg».proof.Proof.Spec
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Frm

open Idealize.ShloMosaic Idealize.ShloMosaic.ValueIdx Cert.KernelIdeal Cert.KernelIdeal.Gen

/-! ## The eight row slices of an input block -/

/-- Row slice 0 of a [128, 8, 128] block: all of axes 0 and 2, coordinate 0 on axis 1. -/
abbrev rs_0 : Rect S128x8x128 := Rect.unit (s := S128x8x128) ![0, 0, 0] S128x1x128.size inb_S128x8x128_S128x1x128_0_0_0
/-- Row slice 1 of a [128, 8, 128] block: all of axes 0 and 2, coordinate 1 on axis 1. -/
abbrev rs_1 : Rect S128x8x128 := Rect.unit (s := S128x8x128) ![0, 1, 0] S128x1x128.size inb_S128x8x128_S128x1x128_0_1_0
/-- Row slice 2 of a [128, 8, 128] block: all of axes 0 and 2, coordinate 2 on axis 1. -/
abbrev rs_2 : Rect S128x8x128 := Rect.unit (s := S128x8x128) ![0, 2, 0] S128x1x128.size inb_S128x8x128_S128x1x128_0_2_0
/-- Row slice 3 of a [128, 8, 128] block: all of axes 0 and 2, coordinate 3 on axis 1. -/
abbrev rs_3 : Rect S128x8x128 := Rect.unit (s := S128x8x128) ![0, 3, 0] S128x1x128.size inb_S128x8x128_S128x1x128_0_3_0
/-- Row slice 4 of a [128, 8, 128] block: all of axes 0 and 2, coordinate 4 on axis 1. -/
abbrev rs_4 : Rect S128x8x128 := Rect.unit (s := S128x8x128) ![0, 4, 0] S128x1x128.size inb_S128x8x128_S128x1x128_0_4_0
/-- Row slice 5 of a [128, 8, 128] block: all of axes 0 and 2, coordinate 5 on axis 1. -/
abbrev rs_5 : Rect S128x8x128 := Rect.unit (s := S128x8x128) ![0, 5, 0] S128x1x128.size inb_S128x8x128_S128x1x128_0_5_0
/-- Row slice 6 of a [128, 8, 128] block: all of axes 0 and 2, coordinate 6 on axis 1. -/
abbrev rs_6 : Rect S128x8x128 := Rect.unit (s := S128x8x128) ![0, 6, 0] S128x1x128.size inb_S128x8x128_S128x1x128_0_6_0
/-- Row slice 7 of a [128, 8, 128] block: all of axes 0 and 2, coordinate 7 on axis 1. -/
abbrev rs_7 : Rect S128x8x128 := Rect.unit (s := S128x8x128) ![0, 7, 0] S128x1x128.size inb_S128x8x128_S128x1x128_0_7_0

/-- What the pairwise stage leaves in the accumulator, from the accumulator's contents `acc` and the two input blocks. -/
def accStep {F : FTy → Type} [FloatOps F] (xi xj : Vec F S128x8x128 .f32) (acc : Vec F S128x128 .f32) : Vec F S128x128 .f32 :=
  k1_pay1 (k1_pay6 (k1_pay4 (View.ld xi rs_0) (View.ld xj rs_0) (View.ld xi rs_1) (View.ld xj rs_1)) (k1_pay5 (View.ld xi rs_2) (View.ld xj rs_2)) (View.ld xi rs_3) (View.ld xj rs_3) (View.ld xi rs_4) (View.ld xj rs_4) (View.ld xi rs_5) (View.ld xj rs_5)) (k1_pay7 (View.ld xi rs_6)) (View.ld xj rs_6) (View.ld xi rs_7) (View.ld xj rs_7) acc

namespace Step

/-! ## The layout operations of the stage read at coordinates -/

section Layout
variable {α : Type}

/-- A [128, 1, 128] array cast to [128, 128] reads, at (a, o), the operand at (a, 0, o). -/
theorem cast_drop_mid (v : S128x1x128.Idx → α) (h : S128x1x128.ShapeCasts S128x128) (a o : Fin 128) :
    shapeCast S128x128 v h (ix2 a o) = v (ix3 a (0 : Fin 1) o) :=
  shapeCast_apply v h _ _ (by
    rw [Shape.rowMajor_val_three, Shape.rowMajor_val_two]
    show (a.val * 1 + 0) * 128 + o.val = a.val * 128 + o.val
    omega)

/-- A [128, 128] array cast to [128, 1, 128] reads, at (a, u, o), the operand at (a, o). -/
theorem cast_add_mid (w : S128x128.Idx → α) (h : S128x128.ShapeCasts S128x1x128) (a : Fin 128) (u : Fin 1) (o : Fin 128) :
    shapeCast S128x1x128 w h (ix3 a u o) = w (ix2 a o) :=
  shapeCast_apply w h _ _ (by
    have hu : u.val = 0 := by omega
    rw [Shape.rowMajor_val_three, Shape.rowMajor_val_two]
    show a.val * 128 + o.val = (a.val * 1 + u.val) * 128 + o.val
    omega)

/-- A [128, 1, 128] array broadcast to [128, 128, 128] reads, at (a, b, o), the operand's row a at o: the middle axis is new. -/
theorem bcast_mid (v : S128x1x128.Idx → α) (h : S128x1x128.Broadcasts S128x128x128) (a b o : Fin 128) :
    broadcastTo S128x128x128 v h (ix3 a b o) = v (ix3 a (0 : Fin 1) o) := by
  refine broadcastTo_apply v h (ix3 a b o) (ix3 a (0 : Fin 1) o) fun ax => ?_
  match ax with
  | ⟨0, _⟩ => rfl
  | ⟨1, _⟩ => rfl
  | ⟨2, _⟩ => rfl

/-- A [1, 128, 128] array broadcast to [128, 128, 128] reads, at (a, b, o), the operand at (0, b, o): the leading axis is new. -/
theorem bcast_lead (v : S1x128x128.Idx → α) (h : S1x128x128.Broadcasts S128x128x128) (a b o : Fin 128) :
    broadcastTo S128x128x128 v h (ix3 a b o) = v (ix3 (0 : Fin 1) b o) := by
  refine broadcastTo_apply v h (ix3 a b o) (ix3 (0 : Fin 1) b o) fun ax => ?_
  match ax with
  | ⟨0, _⟩ => rfl
  | ⟨1, _⟩ => rfl
  | ⟨2, _⟩ => rfl

/-- The first operand's road: a row slice, its unit axis dropped and put back, spread over the middle axis. -/
theorem spread_rows (p : S128x1x128.Idx → α) (a b o : Fin 128) :
    broadcastTo S128x128x128 (shapeCast S128x1x128 (shapeCast S128x128 p shapeCasts_S128x1x128_S128x128) shapeCasts_S128x128_S128x1x128)
      broadcasts_S128x1x128_S128x128x128 (ix3 a b o) = p (ix3 a (0 : Fin 1) o) :=
  (bcast_mid _ _ a b o).trans ((cast_add_mid _ _ a 0 o).trans (cast_drop_mid p _ a o))

/-- The second operand's road: a row slice, its unit axis dropped, a leading unit axis added, spread over the leading axis. -/
theorem spread_cols (q : S128x1x128.Idx → α) (a b o : Fin 128) :
    broadcastTo S128x128x128 (shapeCast S1x128x128 (shapeCast S128x128 q shapeCasts_S128x1x128_S128x128) shapeCasts_S128x128_S1x128x128)
      broadcasts_S1x128x128_S128x128x128 (ix3 a b o) = q (ix3 b (0 : Fin 1) o) :=
  (bcast_lead _ _ a b o).trans ((shapeCast_ab_1ab_apply _ _ 0 b o).trans (cast_drop_mid q _ b o))

end Layout

/-! ## A load through a row slice -/

section Loads
variable {F : FTy → Type} [FloatOps F]

/-- A load through row slice 0 reads, at (a, 0, o), the block at (a, 0, o): offset plus coordinate on each axis. -/
theorem ld_rs_0 (x : Vec F S128x8x128 .f32) (a o : Fin 128) : View.ld x rs_0 (ix3 a (0 : Fin 1) o) = x (ix3 a 0 o) :=
  congrArg x (funext fun d => Fin.ext (by
    match d with
    | ⟨0, _⟩ => show 0 + 1 * a.val = a.val; omega
    | ⟨1, _⟩ => show 0 + 1 * 0 = 0; rfl
    | ⟨2, _⟩ => show 0 + 1 * o.val = o.val; omega))

/-- A load through row slice 1 reads, at (a, 0, o), the block at (a, 1, o): offset plus coordinate on each axis. -/
theorem ld_rs_1 (x : Vec F S128x8x128 .f32) (a o : Fin 128) : View.ld x rs_1 (ix3 a (0 : Fin 1) o) = x (ix3 a 1 o) :=
  congrArg x (funext fun d => Fin.ext (by
    match d with
    | ⟨0, _⟩ => show 0 + 1 * a.val = a.val; omega
    | ⟨1, _⟩ => show 1 + 1 * 0 = 1; rfl
    | ⟨2, _⟩ => show 0 + 1 * o.val = o.val; omega))

/-- A load through row slice 2 reads, at (a, 0, o), the block at (a, 2, o): offset plus coordinate on each axis. -/
theorem ld_rs_2 (x : Vec F S128x8x128 .f32) (a o : Fin 128) : View.ld x rs_2 (ix3 a (0 : Fin 1) o) = x (ix3 a 2 o) :=
  congrArg x (funext fun d => Fin.ext (by
    match d with
    | ⟨0, _⟩ => show 0 + 1 * a.val = a.val; omega
    | ⟨1, _⟩ => show 2 + 1 * 0 = 2; rfl
    | ⟨2, _⟩ => show 0 + 1 * o.val = o.val; omega))

/-- A load through row slice 3 reads, at (a, 0, o), the block at (a, 3, o): offset plus coordinate on each axis. -/
theorem ld_rs_3 (x : Vec F S128x8x128 .f32) (a o : Fin 128) : View.ld x rs_3 (ix3 a (0 : Fin 1) o) = x (ix3 a 3 o) :=
  congrArg x (funext fun d => Fin.ext (by
    match d with
    | ⟨0, _⟩ => show 0 + 1 * a.val = a.val; omega
    | ⟨1, _⟩ => show 3 + 1 * 0 = 3; rfl
    | ⟨2, _⟩ => show 0 + 1 * o.val = o.val; omega))

/-- A load through row slice 4 reads, at (a, 0, o), the block at (a, 4, o): offset plus coordinate on each axis. -/
theorem ld_rs_4 (x : Vec F S128x8x128 .f32) (a o : Fin 128) : View.ld x rs_4 (ix3 a (0 : Fin 1) o) = x (ix3 a 4 o) :=
  congrArg x (funext fun d => Fin.ext (by
    match d with
    | ⟨0, _⟩ => show 0 + 1 * a.val = a.val; omega
    | ⟨1, _⟩ => show 4 + 1 * 0 = 4; rfl
    | ⟨2, _⟩ => show 0 + 1 * o.val = o.val; omega))

/-- A load through row slice 5 reads, at (a, 0, o), the block at (a, 5, o): offset plus coordinate on each axis. -/
theorem ld_rs_5 (x : Vec F S128x8x128 .f32) (a o : Fin 128) : View.ld x rs_5 (ix3 a (0 : Fin 1) o) = x (ix3 a 5 o) :=
  congrArg x (funext fun d => Fin.ext (by
    match d with
    | ⟨0, _⟩ => show 0 + 1 * a.val = a.val; omega
    | ⟨1, _⟩ => show 5 + 1 * 0 = 5; rfl
    | ⟨2, _⟩ => show 0 + 1 * o.val = o.val; omega))

/-- A load through row slice 6 reads, at (a, 0, o), the block at (a, 6, o): offset plus coordinate on each axis. -/
theorem ld_rs_6 (x : Vec F S128x8x128 .f32) (a o : Fin 128) : View.ld x rs_6 (ix3 a (0 : Fin 1) o) = x (ix3 a 6 o) :=
  congrArg x (funext fun d => Fin.ext (by
    match d with
    | ⟨0, _⟩ => show 0 + 1 * a.val = a.val; omega
    | ⟨1, _⟩ => show 6 + 1 * 0 = 6; rfl
    | ⟨2, _⟩ => show 0 + 1 * o.val = o.val; omega))

/-- A load through row slice 7 reads, at (a, 0, o), the block at (a, 7, o): offset plus coordinate on each axis. -/
theorem ld_rs_7 (x : Vec F S128x8x128 .f32) (a o : Fin 128) : View.ld x rs_7 (ix3 a (0 : Fin 1) o) = x (ix3 a 7 o) :=
  congrArg x (funext fun d => Fin.ext (by
    match d with
    | ⟨0, _⟩ => show 0 + 1 * a.val = a.val; omega
    | ⟨1, _⟩ => show 7 + 1 * 0 = 7; rfl
    | ⟨2, _⟩ => show 0 + 1 * o.val = o.val; omega))

end Loads

/-! ## One kernel dimension's term -/

/-- |p[a, 0, o] − q[b, 0, o]| over (a, b, o), as the stage forms it from two row slices: p's rows on the leading axis,
    q's rows on the middle axis. -/
def absDiff {F : FTy → Type} [FloatOps F] (p q : Vec F S128x1x128 .f32) : FVec F S128x128x128 .f32 :=
  absf (subf
    (broadcastTo S128x128x128 (shapeCast S128x1x128 (shapeCast S128x128 p shapeCasts_S128x1x128_S128x128) shapeCasts_S128x128_S128x1x128)
      broadcasts_S128x1x128_S128x128x128)
    (broadcastTo S128x128x128 (shapeCast S1x128x128 (shapeCast S128x128 q shapeCasts_S128x1x128_S128x128) shapeCasts_S128x128_S1x128x128)
      broadcasts_S1x128x128_S128x128x128))

/-- At the ideal instance the term at (a, b, o) is the extended reals' |p[a, 0, o] − q[b, 0, o]|. -/
theorem absDiff_apply (p q : Vec Ideal S128x1x128 .f32) (a b o : Fin 128) :
    absDiff (F := Ideal) p q (ix3 a b o) = Cert.Spec.eabs (p (ix3 a (0 : Fin 1) o) - q (ix3 b (0 : Fin 1) o)) :=
  congrArg₂ (fun u v : EReal => max (u - v) (-(u - v))) (spread_rows p a b o) (spread_cols q a b o)

/-- Kernel dimension k's term from the two input blocks. -/
theorem term_0 (xi xj : Vec Ideal S128x8x128 .f32) (a b o : Fin 128) :
    absDiff (F := Ideal) (View.ld xi rs_0) (View.ld xj rs_0) (ix3 a b o) = Cert.Spec.eabs (xi (ix3 a 0 o) - xj (ix3 b 0 o)) :=
  (absDiff_apply _ _ a b o).trans (congrArg₂ (fun u v : EReal => Cert.Spec.eabs (u - v)) (ld_rs_0 xi a o) (ld_rs_0 xj b o))
theorem term_1 (xi xj : Vec Ideal S128x8x128 .f32) (a b o : Fin 128) :
    absDiff (F := Ideal) (View.ld xi rs_1) (View.ld xj rs_1) (ix3 a b o) = Cert.Spec.eabs (xi (ix3 a 1 o) - xj (ix3 b 1 o)) :=
  (absDiff_apply _ _ a b o).trans (congrArg₂ (fun u v : EReal => Cert.Spec.eabs (u - v)) (ld_rs_1 xi a o) (ld_rs_1 xj b o))
theorem term_2 (xi xj : Vec Ideal S128x8x128 .f32) (a b o : Fin 128) :
    absDiff (F := Ideal) (View.ld xi rs_2) (View.ld xj rs_2) (ix3 a b o) = Cert.Spec.eabs (xi (ix3 a 2 o) - xj (ix3 b 2 o)) :=
  (absDiff_apply _ _ a b o).trans (congrArg₂ (fun u v : EReal => Cert.Spec.eabs (u - v)) (ld_rs_2 xi a o) (ld_rs_2 xj b o))
theorem term_3 (xi xj : Vec Ideal S128x8x128 .f32) (a b o : Fin 128) :
    absDiff (F := Ideal) (View.ld xi rs_3) (View.ld xj rs_3) (ix3 a b o) = Cert.Spec.eabs (xi (ix3 a 3 o) - xj (ix3 b 3 o)) :=
  (absDiff_apply _ _ a b o).trans (congrArg₂ (fun u v : EReal => Cert.Spec.eabs (u - v)) (ld_rs_3 xi a o) (ld_rs_3 xj b o))
theorem term_4 (xi xj : Vec Ideal S128x8x128 .f32) (a b o : Fin 128) :
    absDiff (F := Ideal) (View.ld xi rs_4) (View.ld xj rs_4) (ix3 a b o) = Cert.Spec.eabs (xi (ix3 a 4 o) - xj (ix3 b 4 o)) :=
  (absDiff_apply _ _ a b o).trans (congrArg₂ (fun u v : EReal => Cert.Spec.eabs (u - v)) (ld_rs_4 xi a o) (ld_rs_4 xj b o))
theorem term_5 (xi xj : Vec Ideal S128x8x128 .f32) (a b o : Fin 128) :
    absDiff (F := Ideal) (View.ld xi rs_5) (View.ld xj rs_5) (ix3 a b o) = Cert.Spec.eabs (xi (ix3 a 5 o) - xj (ix3 b 5 o)) :=
  (absDiff_apply _ _ a b o).trans (congrArg₂ (fun u v : EReal => Cert.Spec.eabs (u - v)) (ld_rs_5 xi a o) (ld_rs_5 xj b o))
theorem term_6 (xi xj : Vec Ideal S128x8x128 .f32) (a b o : Fin 128) :
    absDiff (F := Ideal) (View.ld xi rs_6) (View.ld xj rs_6) (ix3 a b o) = Cert.Spec.eabs (xi (ix3 a 6 o) - xj (ix3 b 6 o)) :=
  (absDiff_apply _ _ a b o).trans (congrArg₂ (fun u v : EReal => Cert.Spec.eabs (u - v)) (ld_rs_6 xi a o) (ld_rs_6 xj b o))
theorem term_7 (xi xj : Vec Ideal S128x8x128 .f32) (a b o : Fin 128) :
    absDiff (F := Ideal) (View.ld xi rs_7) (View.ld xj rs_7) (ix3 a b o) = Cert.Spec.eabs (xi (ix3 a 7 o) - xj (ix3 b 7 o)) :=
  (absDiff_apply _ _ a b o).trans (congrArg₂ (fun u v : EReal => Cert.Spec.eabs (u - v)) (ld_rs_7 xi a o) (ld_rs_7 xj b o))

/-! ## The payloads as sums of terms (every instance: by unfolding) -/

section Shapes
variable {F : FTy → Type} [FloatOps F]

/-- Terms 0 and 1 added to the zero splat. -/
theorem pay4_eq (v4 v6 v15 v17 : Vec F S128x1x128 .f32) :
    k1_pay4 v4 v6 v15 v17 = addf (addf (broadcast S128x128x128 (Scalar.ofBits .f32 0x00000000#32)) (absDiff v4 v6)) (absDiff v15 v17) := rfl

/-- Term 2. -/
theorem pay5_eq (v26 v28 : Vec F S128x1x128 .f32) : k1_pay5 v26 v28 = absDiff v26 v28 := rfl

/-- Terms 2 to 5 added to the running sum. -/
theorem pay6_eq (v25 v35 : FVec F S128x128x128 .f32) (v37 v39 v48 v50 v59 v61 : Vec F S128x1x128 .f32) :
    k1_pay6 v25 v35 v37 v39 v48 v50 v59 v61 = addf (addf (addf (addf v25 v35) (absDiff v37 v39)) (absDiff v48 v50)) (absDiff v59 v61) := rfl

/-- Terms 6 and 7 added, the sum subtracted from zero, exponentiated, summed over the middle axis and added to the accumulator. -/
theorem pay1_eq (v69 : FVec F S128x128x128 .f32) (v70 v72 v81 v83 : Vec F S128x1x128 .f32) (v96 : Vec F S128x128 .f32) :
    k1_pay1 v69 (k1_pay7 v70) v72 v81 v83 v96
      = shapeCast S128x128 (addf v96 (multiReduction .add [1] S128x128
          (exp (subf (broadcast S128x128x128 (Scalar.ofBits .f32 0x00000000#32)) (addf (addf v69 (absDiff v70 v72)) (absDiff v81 v83))))
          0x00000000#32 reduces_S128x128x128_S128x128 (.inl rfl) rfl)) shapeCasts_S128x128_S128x128 := rfl

end Shapes

/-! ## The sum over the middle axis -/

/-- The lane sum of a [128, 128, 128] vector over its middle axis, at (a, o): the sum over b of the vector at (a, b, o). -/
theorem lane_sum (src : FVec Ideal S128x128x128 .f32) (hφ : FKind.Formats .f32)
    (hacc : (0x00000000#32 : BitVec 32) = FKind.add.neutral .f32 hφ) (a o : Fin 128) :
    multiReduction (F := Ideal) .add [1] S128x128 src 0x00000000#32 reduces_S128x128x128_S128x128 hφ hacc (ix2 a o)
      = ∑ b : Fin 128, src (ix3 a b o) := by
  refine (Ideal.multiReduction_add_single src 0x00000000#32 reduces_S128x128x128_S128x128 hφ hacc (ix2 a o)).trans ?_
  refine Finset.sum_congr rfl fun b _ => congrArg src (funext fun d => Fin.ext ?_)
  match d with
  | ⟨0, _⟩ => rfl
  | ⟨1, _⟩ => rfl
  | ⟨2, _⟩ => rfl

/-! ## The matmul's operand indices, axis by axis -/

/-- The left operand's index on its kept axis is the output's row … -/
theorem mm_lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- … and on its contracted axis the contraction coordinate. -/
theorem mm_lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The right operand's index on its contracted axis is the contraction coordinate … -/
theorem mm_rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- … and on its kept axis the output's column. -/
theorem mm_rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

end Step

open Step

/-! ## The stage at an index -/

theorem accStep_apply (xi xj : Vec Ideal S128x8x128 .f32) (acc : Vec Ideal S128x128 .f32) (a o : Fin 128) :
    accStep (F := Ideal) xi xj acc (ix2 a o) = acc (ix2 a o) + ∑ b : Fin 128, Ideal.exp (0 - ((((((((0 + Cert.Spec.eabs (xi (ix3 a 0 o) - xj (ix3 b 0 o))) + Cert.Spec.eabs (xi (ix3 a 1 o) - xj (ix3 b 1 o))) + Cert.Spec.eabs (xi (ix3 a 2 o) - xj (ix3 b 2 o))) + Cert.Spec.eabs (xi (ix3 a 3 o) - xj (ix3 b 3 o))) + Cert.Spec.eabs (xi (ix3 a 4 o) - xj (ix3 b 4 o))) + Cert.Spec.eabs (xi (ix3 a 5 o) - xj (ix3 b 5 o))) + Cert.Spec.eabs (xi (ix3 a 6 o) - xj (ix3 b 6 o))) + Cert.Spec.eabs (xi (ix3 a 7 o) - xj (ix3 b 7 o)))) := by
  unfold accStep
  rw [pay1_eq, shapeCast_self]
  refine congrArg (acc (ix2 a o) + ·) ((lane_sum _ _ _ a o).trans (Finset.sum_congr rfl fun b _ => ?_))
  rw [pay6_eq, pay5_eq, pay4_eq]
  show Ideal.exp (Ideal.ofBits .f32 0x00000000#32 - ((((((((Ideal.ofBits .f32 0x00000000#32 + absDiff (F := Ideal) (View.ld xi rs_0) (View.ld xj rs_0) (ix3 a b o)) + absDiff (F := Ideal) (View.ld xi rs_1) (View.ld xj rs_1) (ix3 a b o)) + absDiff (F := Ideal) (View.ld xi rs_2) (View.ld xj rs_2) (ix3 a b o)) + absDiff (F := Ideal) (View.ld xi rs_3) (View.ld xj rs_3) (ix3 a b o)) + absDiff (F := Ideal) (View.ld xi rs_4) (View.ld xj rs_4) (ix3 a b o)) + absDiff (F := Ideal) (View.ld xi rs_5) (View.ld xj rs_5) (ix3 a b o)) + absDiff (F := Ideal) (View.ld xi rs_6) (View.ld xj rs_6) (ix3 a b o)) + absDiff (F := Ideal) (View.ld xi rs_7) (View.ld xj rs_7) (ix3 a b o))) = _
  rw [term_0, term_1, term_2, term_3, term_4, term_5, term_6, term_7, Ideal.ofBits_zero_f32]

/-! ## The closing and the opening payloads -/

theorem fin_apply (v : Vec Ideal S128x128 .f32) (a o : Fin 128) :
    k1_pay2 (F := Ideal) v (ix2 a o) = v (ix2 a o) - Ideal.ofBits .f32 0x3F800000#32 := rfl

theorem zero_apply (a o : Fin 128) : k1_pay3 (F := Ideal) (ix2 a o) = 0 := by
  unfold k1_pay3
  rw [shapeCast_self]
  exact Ideal.ofBits_zero_f32

/-! ## The matmul payload -/

theorem mm_apply (x0 : Vec Ideal S256x1024 .f32) (x1 : Vec Ideal S1024x1024 .f32) (b : Fin 256) (c : Fin 1024) :
    k0_pay1 (F := Ideal) x0 x1 (ix2 b c) = ∑ n : Fin 1024, x0 (ix2 b n) * x1 (ix2 n c) := by
  unfold k0_pay1
  rw [shapeCast_self]
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 b c) ((contrEquiv1 dot_S256x1024_S1024x1024_S256x1024_1_0_0_1_n_n 1024 rfl rfl).symm k) = ix2 b k := funext fun d => Fin.ext (by
    match d with
    | ⟨0, _⟩ => exact mm_lhs_0 _ _
    | ⟨1, _⟩ => exact (mm_lhs_1 _ _).trans hk)
  have er : dot_S256x1024_S1024x1024_S256x1024_1_0_0_1_n_n.rhsIdx (ix2 b c) ((contrEquiv1 dot_S256x1024_S1024x1024_S256x1024_1_0_0_1_n_n 1024 rfl rfl).symm k) = ix2 k c := funext fun d => Fin.ext (by
    match d with
    | ⟨0, _⟩ => exact (mm_rhs_0 _ _).trans hk
    | ⟨1, _⟩ => exact mm_rhs_1 _ _)
  rw [el, er]
  rfl

end Cert.KernelIdeal.Frm

end
-- ==== Proof.KI.ValM.lean ====
import proofs.«122167_j66391604461943_1_alg».proof.Proof.KI.Run
import proofs.«122167_j66391604461943_1_alg».proof.Proof.KI.Step
import proofs.«122167_j66391604461943_1_alg».proof.Proof.Spec
import Idealize.ShloMosaic.Lib.Pipeline.Value
import Idealize.ShloMosaic.Lib.ValueIdx
import Idealize.ShloMosaic.Lib.ValueLayout
import Idealize.ShloMosaic.Lib.StableHlo.Run

/-! # The projected samples, as the pairwise region finds them

Before the pairwise region runs, `@main` has swapped the last two axes of the second input `T` and flattened
it to a 1024x1024 matrix, multiplied the first input `x` by it in the matmul region, and reshaped the 256x1024
product to samples × kernel dimensions × features. Read at sample `b`, kernel dimension `k`, feature `o`, the
result is the projection `∑ n, x[b, n] · T[n, o, k]`: the reshape reads the product at column `128·k + o`; the
product there is the row-by-column sum; and column `128·k + o` of the flattened matrix is `T[·, o, k]`. -/

set_option maxRecDepth 16384

noncomputable section

open scoped BigOperators

namespace Cert.KernelIdeal.Frm

open Idealize.ShloMosaic Idealize.ShloMosaic.TcCoe Idealize.ShloMosaic.ValueIdx
open Idealize.ShloMosaic.Pipeline (Dat)
open Cert.KernelIdeal Cert.KernelIdeal.Gen

/-! ## The layout operations read at coordinates -/

section Layout
variable {α : Type}

/-- Column `128·k + o` of a 1024-wide row, as an index below 1024. -/
abbrev col (k : Fin 8) (o : Fin 128) : Fin 1024 := ⟨k.val * 128 + o.val, by omega⟩

/-- A [256, 1024] array reshaped to [256, 8, 128] reads, at (b, k, o), the operand at (b, 128·k + o). -/
theorem split_cols_apply (y : S256x1024.Idx → α) (h : S256x1024.ShapeCasts S256x8x128) (b : Fin 256) (k : Fin 8) (o : Fin 128) :
    shapeCast S256x8x128 y h (ix3 b k o) = y (ix2 b (col k o)) :=
  shapeCast_apply y h _ _ (by
    rw [Shape.rowMajor_val_two, Shape.rowMajor_val_three]
    show b.val * 1024 + (k.val * 128 + o.val) = (b.val * 8 + k.val) * 128 + o.val
    omega)

/-- A [1024, 8, 128] array flattened to [1024, 1024] reads, at (n, 128·k + o), the operand at (n, k, o). -/
theorem merge_cols_apply (z : S1024x8x128.Idx → α) (h : S1024x8x128.ShapeCasts S1024x1024) (n : Fin 1024) (k : Fin 8) (o : Fin 128) :
    shapeCast S1024x1024 z h (ix2 n (col k o)) = z (ix3 n k o) :=
  shapeCast_apply z h _ _ (by
    rw [Shape.rowMajor_val_three, Shape.rowMajor_val_two]
    show (n.val * 8 + k.val) * 128 + o.val = n.val * 1024 + (k.val * 128 + o.val)
    omega)

/-- A [1024, 128, 8] array with its last two axes swapped reads, at (n, k, o), the operand at (n, o, k). -/
theorem swap_last_apply (T : S1024x128x8.Idx → α) (h : S1024x128x8.Transposes [0, 2, 1] S1024x8x128) (n : Fin 1024) (k : Fin 8) (o : Fin 128) :
    transpose S1024x8x128 [0, 2, 1] T h (ix3 n k o) = T (ix3 n o k) :=
  transpose_apply [0, 2, 1] T h _ _ (fun a => by
    match a with
    | ⟨0, _⟩ => rfl
    | ⟨1, _⟩ => rfl
    | ⟨2, _⟩ => rfl)

end Layout

variable (m : (ℓ : Loc nD τ sig) → Buf (Elt Ideal) ℓ)

/-! ## The host stretches -/

/-- The first input reaches the matmul region as launched: the first host stretch does not write it. -/
theorem entry_x (c : Dev nD) : V1 m c main_arg0 = m ((c : Thread nD τ).loc main_arg0) :=
  StableHlo.after_of_writes_sub hostOps0 _ hostOps0_writes (by decide)

/-- The matmul region's right factor is the second input with its last two axes swapped, flattened. -/
theorem entry_T (c : Dev nD) :
    (V1 m c main_v1 : S1024x1024.Idx → EReal)
      = shapeCast S1024x1024 (transpose S1024x8x128 [0, 2, 1] (m ((c : Thread nD τ).loc main_arg1) : S1024x128x8.Idx → EReal) transposes_S1024x128x8_S1024x8x128_0_2_1)
          shapeCasts_S1024x8x128_S1024x1024 := by
  show StableHlo.after hostOps0 (W0 m c) (Proc.devRef .tc main_v1) = _
  after_results
  rfl

/-- The pairwise region's input is the matmul region's output array, reshaped. -/
theorem entry_samples (c : Dev nD) :
    (V3 m c main_v3 : S256x8x128.Idx → EReal)
      = shapeCast S256x8x128 (V2 m c main_v2 : S256x1024.Idx → EReal) shapeCasts_S256x1024_S256x8x128 := by
  show StableHlo.after hostOps1 (W2 m c) (Proc.devRef .tc main_v3) = _
  after_results
  rfl

/-! ## The matmul region's output array -/

/-- The zero offsets of a whole-buffer rectangle, spelt as a constant function. -/
theorem zero_off : (![0, 0] : Fin 2 → Nat) = fun _ => 0 := funext fun a => by fin_cases a <;> rfl

/-- The printed index maps at the grid's points: every window's block index is zero on both axes. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- So each window's block sits at the array's origin and spans it: a block coordinate is its array coordinate. -/
theorem emb_left (t : Fin cfg0.N) (j : S256x1024.Idx) : ((cfg0.win 0).blk t).view.emb j = j := by
  obtain ⟨e0, e1, -⟩ := idx_zero t
  funext a; apply Fin.ext
  match a with
  | ⟨0, _⟩ => show win0_0.index t (0 : Fin 2) * 256 + 1 * (j 0).val = (j 0).val; omega
  | ⟨1, _⟩ => show win0_0.index t (1 : Fin 2) * 1024 + 1 * (j 1).val = (j 1).val; omega
theorem emb_right (t : Fin cfg0.N) (j : S1024x1024.Idx) : ((cfg0.win 1).blk t).view.emb j = j := by
  obtain ⟨-, -, e0, e1, -⟩ := idx_zero t
  funext a; apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega
theorem emb_out (t : Fin cfg0.N) (j : S256x1024.Idx) : ((cfg0.win 2).blk t).view.emb j = j := by
  obtain ⟨-, -, -, -, e0, e1⟩ := idx_zero t
  funext a; apply Fin.ext
  match a with
  | ⟨0, _⟩ => show win0_2.index t (0 : Fin 2) * 256 + 1 * (j 0).val = (j 0).val; omega
  | ⟨1, _⟩ => show win0_2.index t (1 : Fin 2) * 1024 + 1 * (j 1).val = (j 1).val; omega

/-- What the one grid point writes back is the product of the two factor arrays as the region finds them, read
    through the output window's block (the whole array). -/
theorem flushed_product (c : Dev nD) (t : Fin cfg0.N) :
    (dat0 (V1 m) c).flushed 2 t
      = ((cfg0.win 2).blk t).view.read (Elt Ideal) (k0_pay1 (F := Ideal) (V1 m c main_arg0) (V1 m c main_v1)) := by
  show (cfg0.win 2).cut (grid0.coords t) ((dat0 (V1 m) c).after 2 t) = _
  rw [after0_2]
  unfold out0_2
  rw [View.canon_unit_zero zero_off]
  simp only [View.ld_unit_zero (S := S256x1024) zero_off, View.ld_unit_zero (S := S1024x1024) zero_off]
  have hl : iblk0 (V1 m) c 0 t = V1 m c main_arg0 := funext fun j => by
    show V1 m c main_arg0 (((cfg0.win 0).blk t).view.emb j) = _
    rw [emb_left]
  have hr : iblk0 (V1 m) c 1 t = V1 m c main_v1 := funext fun j => by
    show V1 m c main_v1 (((cfg0.win 1).blk t).view.emb j) = _
    rw [emb_right]
  rw [hl, hr]
  funext j
  show k0_pay1 (F := Ideal) (V1 m c main_arg0) (V1 m c main_v1) j
    = k0_pay1 (F := Ideal) (V1 m c main_arg0) (V1 m c main_v1) (((cfg0.win 2).blk t).view.emb j)
  rw [emb_out]

/-- Every index of the output array is in the one point's block. -/
theorem product_cover (i : S256x1024.Idx) :
    ∃ t : Fin cfg0.N, (cfg0.win 2).flush t = true ∧ i ∈ ((cfg0.win 2).blk t).view.set := by
  refine ⟨t0_0, flush0_2 t0_0, ?_⟩
  have h := ((cfg0.win 2).blk t0_0).view.emb_mem_set i
  rw [emb_out] at h
  exact h

/-- The output array after the region: the product of the two factor arrays. -/
theorem product_array (c : Dev nD) :
    (V2 m c main_v2 : S256x1024.Idx → EReal) = k0_pay1 (F := Ideal) (V1 m c main_arg0) (V1 m c main_v1) :=
  (W2_arr m c 2).trans
    ((dat0 (V1 m) c).arrAt_eq_of_cover 2 _ (fun t _ => flushed_product m c t) product_cover)

/-! ## The samples at an index -/

/-- The chain of operations on arrays of the literal shapes: swap and flatten `T`, multiply `x` by it, split the
    columns. At (b, k, o) it is the projection: the split reads column `128·k + o` of the product, the product is
    the row-by-column sum, and that column of the flattened matrix is `T[·, o, k]`. -/
theorem proj_of_layout (x : Vec Ideal S256x1024 .f32) (T : Vec Ideal S1024x128x8 .f32)
    (h1 : S1024x128x8.Transposes [0, 2, 1] S1024x8x128) (h2 : S1024x8x128.ShapeCasts S1024x1024)
    (h3 : S256x1024.ShapeCasts S256x8x128) (b : Fin 256) (k : Fin 8) (o : Fin 128) :
    shapeCast S256x8x128 (k0_pay1 (F := Ideal) x (shapeCast S1024x1024 (transpose S1024x8x128 [0, 2, 1] T h1) h2)) h3 (ix3 b k o)
      = Cert.Spec.proj x T b o k := by
  rw [split_cols_apply, mm_apply]
  unfold Cert.Spec.proj
  refine Finset.sum_congr rfl fun n _ => ?_
  rw [merge_cols_apply, swap_last_apply]

/-- The projected samples array as the pairwise region finds it: sample `b`, kernel dimension `k`, feature `o`. -/
theorem samples_eq (m : (ℓ : Loc nD τ sig) → Buf (Elt Ideal) ℓ) (c : Dev nD) (b : Fin 256) (k : Fin 8) (o : Fin 128) :
    V3 m c main_v3 (ix3 b k o) = Cert.Spec.proj (m ((c : Thread nD τ).loc main_arg0)) (m ((c : Thread nD τ).loc main_arg1)) b o k := by
  have e : (V3 m c main_v3 : S256x8x128.Idx → EReal)
      = shapeCast S256x8x128 (k0_pay1 (F := Ideal) (m ((c : Thread nD τ).loc main_arg0))
          (shapeCast S1024x1024 (transpose S1024x8x128 [0, 2, 1] (m ((c : Thread nD τ).loc main_arg1) : S1024x128x8.Idx → EReal) transposes_S1024x128x8_S1024x8x128_0_2_1)
            shapeCasts_S1024x8x128_S1024x1024)) shapeCasts_S256x1024_S256x8x128 := by
    rw [entry_samples, product_array, entry_x, entry_T]
  exact (congrFun e (ix3 b k o)).trans (proj_of_layout _ _ _ _ _ b k o)

end Cert.KernelIdeal.Frm

end
-- ==== Proof.KI.Pieces.lean ====
/- The pairwise call's found pieces in closed form: what a grid point leaves in the accumulator and in the output
   buffer, as the stage function `accStep` of the two input blocks and the accumulator's earlier contents. -/
import proofs.«122167_j66391604461943_1_alg».proof.Proof.KI.R1
import proofs.«122167_j66391604461943_1_alg».proof.Proof.KI.Step

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-two rectangle, in the two spellings that occur. -/
theorem hz2 : (![0, 0] : Fin S128x128.rank → Nat) = fun _ => 0 := by
  funext a; fin_cases a <;> rfl

/-- Where j = 0: the accumulator is zeroed, then one stage is added; the second piece covers the first. -/
theorem sout1_A_0_eq (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : cond1_0 i) (hc1 : ¬cond1_1 i)
    (x0 : Vec F S128x8x128 .f32) (x1 : Vec F S128x8x128 .f32) :
    sout1_A_0 c i arg2 harg2 arg3 harg3 arg4 harg4 arg5 harg5 hc0 hc1 x0 x1 = accStep x0 x1 (k1_pay3 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S128x128) hz2]
  simp only [View.readAt_eq_ld, harg2.read_unread, harg3.read_unread, View.readCov_unit_zero (S := S128x128) _ hz2]
  unfold accStep
  rfl

/-- Where j = 1: one stage is added to what the accumulator held. -/
theorem sout1_C_0_eq (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) :
    sout1_C_0 c i arg2 harg2 arg3 harg3 arg4 harg4 arg5 harg5 hc0 hc1 x0 x1 xs0 = accStep x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero (S := S128x128) hz2]
  simp only [View.readAt_eq_ld, harg2.read_unread, harg3.read_unread, harg5.read_unread, View.ld_unit_zero (S := S128x128) hz2]
  unfold accStep
  rfl

/-- Where j = 1 the output buffer receives the accumulator's new contents minus one. -/
theorem out1_C_2_eq (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x128 .f32) (harg4 : arg4.IsWhole) (arg5 : Memref sig .tc .vmem S128x128 .f32) (harg5 : arg5.IsWhole) (hc0 : ¬cond1_0 i) (hc1 : cond1_1 i)
    (x0 : Vec F S128x8x128 .f32) (x1 : Vec F S128x8x128 .f32) (xs0 : Vec F S128x128 .f32) :
    out1_C_2 c i arg2 harg2 arg3 harg3 arg4 harg4 arg5 harg5 hc0 hc1 x0 x1 xs0 = k1_pay2 (accStep x0 x1 xs0) := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero (S := S128x128) hz2]
  simp only [View.readAt_eq_ld, harg2.read_unread, harg3.read_unread, harg5.read_unread, View.readCov_unit_zero (S := S128x128) _ hz2, View.ld_unit_zero (S := S128x128) hz2]
  unfold accStep
  rfl

/-- The output block written back at an odd point t = 2i + 1: two stages from zero — block i against block 0 at the
    point before, block i against block 1 at this point — minus one. -/
theorem outs_odd (c : Dev nD) (t : Fin cfg1.N) (h1 : t.val % 2 = 1) :
    (outsAt1 V c t.val t.isLt).1 = k1_pay2 (accStep (iblk1 V c 0 t) (iblk1 V c 1 t) (accStep (iblk1 V c 0 ⟨t.val - 1, Nat.lt_of_le_of_lt (Nat.sub_le _ _) t.isLt⟩) (iblk1 V c 1 ⟨t.val - 1, Nat.lt_of_le_of_lt (Nat.sub_le _ _) t.isLt⟩) (k1_pay3 (F := F)))) := by
  have h0 : (t.val - 1) % 2 = 0 := by omega
  rw [outsAt1_C V c t h1]
  dsimp only
  refine (out1_C_2_eq (F := F) c (grid1.coords t) (ms1_0 t) (hs1_0 t) (ms1_1 t) (hs1_1 t) (ms1_2 t) (hs1_2 t) scM1_0 (Memref.isWhole_whole _) (not_cond1_0_of_odd t h1) ((hcond1_1 t).mpr h1) (iblk1 V c 0 t) (iblk1 V c 1 t) (outsAt1 V c (t.val - 1) (Nat.lt_of_le_of_lt (Nat.sub_le _ _) t.isLt)).2).trans ?_
  refine congrArg (fun z : Vec F S128x128 .f32 => k1_pay2 (accStep (iblk1 V c 0 t) (iblk1 V c 1 t) z)) ?_
  have hA := outsAt1_A V c (⟨t.val - 1, Nat.lt_of_le_of_lt (Nat.sub_le _ _) t.isLt⟩ : Fin cfg1.N) h0
  dsimp only at hA
  rw [hA]
  dsimp only
  exact sout1_A_0_eq (F := F) c (grid1.coords (⟨t.val - 1, Nat.lt_of_le_of_lt (Nat.sub_le _ _) t.isLt⟩ : Fin cfg1.N)) (ms1_0 (⟨t.val - 1, Nat.lt_of_le_of_lt (Nat.sub_le _ _) t.isLt⟩ : Fin cfg1.N)) (hs1_0 (⟨t.val - 1, Nat.lt_of_le_of_lt (Nat.sub_le _ _) t.isLt⟩ : Fin cfg1.N)) (ms1_1 (⟨t.val - 1, Nat.lt_of_le_of_lt (Nat.sub_le _ _) t.isLt⟩ : Fin cfg1.N)) (hs1_1 (⟨t.val - 1, Nat.lt_of_le_of_lt (Nat.sub_le _ _) t.isLt⟩ : Fin cfg1.N)) (ms1_2 (⟨t.val - 1, Nat.lt_of_le_of_lt (Nat.sub_le _ _) t.isLt⟩ : Fin cfg1.N)) (hs1_2 (⟨t.val - 1, Nat.lt_of_le_of_lt (Nat.sub_le _ _) t.isLt⟩ : Fin cfg1.N)) scM1_0 (Memref.isWhole_whole _) ((hcond1_0 (⟨t.val - 1, Nat.lt_of_le_of_lt (Nat.sub_le _ _) t.isLt⟩ : Fin cfg1.N)).mpr h0) (not_cond1_1_of_even (⟨t.val - 1, Nat.lt_of_le_of_lt (Nat.sub_le _ _) t.isLt⟩ : Fin cfg1.N) h0) (iblk1 V c 0 (⟨t.val - 1, Nat.lt_of_le_of_lt (Nat.sub_le _ _) t.isLt⟩ : Fin cfg1.N)) (iblk1 V c 1 (⟨t.val - 1, Nat.lt_of_le_of_lt (Nat.sub_le _ _) t.isLt⟩ : Fin cfg1.N))

end Cert.KernelIdeal.Frm

end
-- ==== Proof.Algebra.lean ====
/-
  The kernel's arrangement of the similarity feature equals the specification's.

  Three facts.  The absolute value of a difference does not depend on the order of subtraction, also at the infinite
  points of the extended reals (there ⊤ − ⊤ = ⊥ on both sides).  A sum over 256 samples is the sum over the first 128
  plus the sum over the last 128.  And eight terms added one after another from zero are the sum over the eight kernel
  dimensions.  Addition on the extended reals is a commutative monoid, so nothing here asks for finiteness.
-/
import proofs.«122167_j66391604461943_1_alg».proof.Proof.Spec
import Mathlib.Data.EReal.Operations
import Mathlib.Algebra.BigOperators.Fin

noncomputable section

open scoped BigOperators

namespace Cert.Spec

open Idealize.ShloMosaic Idealize.ShloMosaic.ValueIdx

/-- |u − v| = |v − u| on the extended reals: on reals by −(u − v) = v − u; at the infinite points both sides are ⊤. -/
theorem eabs_sub_comm (u v : EReal) : eabs (u - v) = eabs (v - u) := by
  unfold eabs
  induction u using EReal.rec with
  | bot =>
    induction v using EReal.rec with
    | bot => rfl
    | coe b => simp
    | top => simp
  | coe a =>
    induction v using EReal.rec with
    | bot => simp
    | coe b =>
      rw [← EReal.coe_sub, ← EReal.coe_sub, ← EReal.coe_neg, ← EReal.coe_neg, neg_sub, neg_sub, max_comm]
    | top => simp
  | top =>
    induction v using EReal.rec with
    | bot => simp
    | coe b => simp
    | top => rfl

/-- Zero minus a value is its negative. -/
theorem ezero_sub (u : EReal) : 0 - u = -u := by
  rw [sub_eq_add_neg, zero_add]

/-- One sample's term in the kernel's arrangement is exp (− distance). -/
theorem term_eq (x : SX.Idx → EReal) (T : ST.Idx → EReal) (a b : Fin 256) (o : Fin 128) :
    Ideal.exp (0 - ((((((((0 + eabs (proj x T a o 0 - proj x T b o 0))
      + eabs (proj x T a o 1 - proj x T b o 1))
      + eabs (proj x T a o 2 - proj x T b o 2))
      + eabs (proj x T a o 3 - proj x T b o 3))
      + eabs (proj x T a o 4 - proj x T b o 4))
      + eabs (proj x T a o 5 - proj x T b o 5))
      + eabs (proj x T a o 6 - proj x T b o 6))
      + eabs (proj x T a o 7 - proj x T b o 7)))
      = Ideal.exp (-(dist x T a b o)) := by
  unfold dist
  rw [Fin.sum_univ_eight, ezero_sub, zero_add,
    eabs_sub_comm (proj x T b o 0), eabs_sub_comm (proj x T b o 1), eabs_sub_comm (proj x T b o 2),
    eabs_sub_comm (proj x T b o 3), eabs_sub_comm (proj x T b o 4), eabs_sub_comm (proj x T b o 5),
    eabs_sub_comm (proj x T b o 6), eabs_sub_comm (proj x T b o 7)]

/-- A tile's sum is the sum of exp (− distance) over the tile's 128 samples. -/
theorem tileSum_eq (x : SX.Idx → EReal) (T : ST.Idx → EReal) (a : Fin 256) (J : Fin 2) (o : Fin 128) :
    tileSum x T a J o
      = ∑ b : Fin 128, Ideal.exp (-(dist x T a ⟨128 * J.val + b.val, by omega⟩ o)) := by
  unfold tileSum
  exact Finset.sum_congr rfl fun b _ => term_eq x T a ⟨128 * J.val + b.val, by omega⟩ o

/-- A sum over 256 samples is the sum over samples 0 … 127 plus the sum over samples 128 … 255. -/
theorem sum_two_tiles (f : Fin 256 → EReal) :
    ∑ b : Fin 256, f b
      = (∑ b : Fin 128, f ⟨128 * (0 : Fin 2).val + b.val, by omega⟩)
        + ∑ b : Fin 128, f ⟨128 * (1 : Fin 2).val + b.val, by omega⟩ := by
  refine (Fin.sum_univ_add (a := 128) (b := 128) f).trans ?_
  congr 1 <;> exact Finset.sum_congr rfl fun b _ => congrArg f (Fin.ext (by simp))

/-- The kernel's arrangement of the feature is the specification's feature. -/
theorem featK_eq_feat (x : SX.Idx → EReal) (T : ST.Idx → EReal) (a : Fin 256) (o : Fin 128) :
    featK x T a o = feat x T a o := by
  unfold featK feat
  rw [tileSum_eq, tileSum_eq, zero_add, sum_two_tiles (fun b => Ideal.exp (-(dist x T a b o)))]

end Cert.Spec

end
-- ==== Proof.KI.ValC.lean ====
/-
  The feature array after the pairwise call, block by block.

  The call runs on a 2 × 2 grid; point t is (i, j) = (t / 2, t % 2).  Its first window shows rows 128·i … 128·i + 127 of
  the projections' array [sample, kernel dimension, feature], its second rows 128·j … 128·j + 127, and its output
  window rows 128·i … of the feature array, written back at the odd points.  At an odd point the block written back
  is two stages from zero, row block i against key block 0 and then against key block 1, less one: read at (a, o)
  that is the kernel's arrangement of the feature of sample 128·i + a, which equals the specification's.  The two odd
  points' blocks tile the array.
-/
import proofs.«122167_j66391604461943_1_alg».proof.Proof.KI.Pieces
import proofs.«122167_j66391604461943_1_alg».proof.Proof.KI.Step
import proofs.«122167_j66391604461943_1_alg».proof.Proof.Spec
import proofs.«122167_j66391604461943_1_alg».proof.Proof.Algebra
import Idealize.ShloMosaic.Lib.Pipeline.Value
import Idealize.ShloMosaic.Lib.ValueIdx

set_option maxRecDepth 16384

noncomputable section

open scoped BigOperators

namespace Cert.KernelIdeal.Frm

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The grid's index maps, decided once -/

/-- Point t shows row block t / 2 in the first window, row block t % 2 in the second, and writes row block t / 2 of
    the output; every other block index is zero. -/
theorem idx_facts1 : ∀ t : Fin cfg1.N,
    win1_0.index t (0 : Fin 3) = t.val / 2 ∧ win1_0.index t (1 : Fin 3) = 0 ∧ win1_0.index t (2 : Fin 3) = 0
    ∧ win1_1.index t (0 : Fin 3) = t.val % 2 ∧ win1_1.index t (1 : Fin 3) = 0 ∧ win1_1.index t (2 : Fin 3) = 0
    ∧ win1_2.index t (0 : Fin 2) = t.val / 2 ∧ win1_2.index t (1 : Fin 2) = 0 :=
  (by decide +kernel : ∀ t : Fin grid1.N, _)

/-- The grid has four points. -/
theorem lt_four (t : Fin cfg1.N) : t.val < 4 := lt_of_lt_of_eq t.isLt (show cfg1.N = 4 from N_1)

/-! ## The input blocks as rows of the projections' array -/

/-- The first window's block at point t reads row 128·(t / 2) + a of the array. -/
theorem rowBlk_apply (c : Dev nD) (t : Fin cfg1.N) (a : Fin 128) (k : Fin 8) (o : Fin 128) (r : Fin 256)
    (hr : r.val = 128 * (t.val / 2) + a.val) :
    (iblk1 V c 0 t : Vec Ideal S128x8x128 .f32) (ix3 a k o) = (V c main_v3 : Vec Ideal S256x8x128 .f32) (ix3 r k o) := by
  obtain ⟨e0, e1, e2, -, -, -, -, -⟩ := idx_facts1 t
  unfold iblk1
  rw [View.read_apply]
  show V c main_v3 _ = V c main_v3 _
  refine congrArg (V c main_v3) (funext fun d => Fin.ext ?_)
  match d with
  | ⟨0, _⟩ => show win1_0.index t (0 : Fin 3) * 128 + 1 * a.val = r.val; rw [e0, hr]; omega
  | ⟨1, _⟩ => show win1_0.index t (1 : Fin 3) * 8 + 1 * k.val = k.val; rw [e1]; omega
  | ⟨2, _⟩ => show win1_0.index t (2 : Fin 3) * 128 + 1 * o.val = o.val; rw [e2]; omega

/-- The second window's block at point t reads row 128·(t % 2) + b of the array. -/
theorem keyBlk_apply (c : Dev nD) (t : Fin cfg1.N) (b : Fin 128) (k : Fin 8) (o : Fin 128) (s : Fin 256)
    (hs : s.val = 128 * (t.val % 2) + b.val) :
    (iblk1 V c 1 t : Vec Ideal S128x8x128 .f32) (ix3 b k o) = (V c main_v3 : Vec Ideal S256x8x128 .f32) (ix3 s k o) := by
  obtain ⟨-, -, -, e0, e1, e2, -, -⟩ := idx_facts1 t
  unfold iblk1
  rw [View.read_apply]
  show V c main_v3 _ = V c main_v3 _
  refine congrArg (V c main_v3) (funext fun d => Fin.ext ?_)
  match d with
  | ⟨0, _⟩ => show win1_1.index t (0 : Fin 3) * 128 + 1 * b.val = s.val; rw [e0, hs]; omega
  | ⟨1, _⟩ => show win1_1.index t (1 : Fin 3) * 8 + 1 * k.val = k.val; rw [e1]; omega
  | ⟨2, _⟩ => show win1_1.index t (2 : Fin 3) * 128 + 1 * o.val = o.val; rw [e2]; omega

/-! ## One stage's sum is one tile's sum -/

/-- The stage over two blocks whose entries are values of one function P of (sample, feature, kernel dimension): the
    first block's row a is sample r, the second block's row b is sample s b. -/
theorem stage_of_rows (xi xj : Vec Ideal S128x8x128 .f32) (acc : Vec Ideal S128x128 .f32)
    (P : Fin 256 → Fin 128 → Fin 8 → EReal) (a o : Fin 128) (r : Fin 256) (s : Fin 128 → Fin 256)
    (hxi : ∀ k : Fin 8, xi (ix3 a k o) = P r o k) (hxj : ∀ (b : Fin 128) (k : Fin 8), xj (ix3 b k o) = P (s b) o k) :
    accStep (F := Ideal) xi xj acc (ix2 a o) = acc (ix2 a o) + ∑ b : Fin 128, Ideal.exp (0 - ((((((((0
      + Cert.Spec.eabs (P r o 0 - P (s b) o 0)) + Cert.Spec.eabs (P r o 1 - P (s b) o 1))
      + Cert.Spec.eabs (P r o 2 - P (s b) o 2)) + Cert.Spec.eabs (P r o 3 - P (s b) o 3))
      + Cert.Spec.eabs (P r o 4 - P (s b) o 4)) + Cert.Spec.eabs (P r o 5 - P (s b) o 5))
      + Cert.Spec.eabs (P r o 6 - P (s b) o 6)) + Cert.Spec.eabs (P r o 7 - P (s b) o 7))) := by
  rw [accStep_apply]
  simp only [hxi, hxj]

/-- The stage at point t, read at row a and feature o, sums over key tile J = t % 2 for sample r = 128·(t / 2) + a. -/
theorem stage_tile (c : Dev nD) (x : Cert.Spec.SX.Idx → EReal) (T : Cert.Spec.ST.Idx → EReal)
    (hM : ∀ (b : Fin 256) (k : Fin 8) (o : Fin 128), V c main_v3 (ix3 b k o) = Cert.Spec.proj x T b o k)
    (t : Fin cfg1.N) (J : Fin 2) (hJ : t.val % 2 = J.val) (a : Fin 128) (r : Fin 256) (hr : r.val = 128 * (t.val / 2) + a.val) (o : Fin 128)
    (acc : Vec Ideal S128x128 .f32) :
    accStep (F := Ideal) (iblk1 V c 0 t) (iblk1 V c 1 t) acc (ix2 a o) = acc (ix2 a o) + Cert.Spec.tileSum x T r J o :=
  stage_of_rows (iblk1 V c 0 t) (iblk1 V c 1 t) acc (Cert.Spec.proj x T) a o r
    (fun b => ⟨128 * J.val + b.val, by have := J.isLt; have := b.isLt; omega⟩)
    (fun k => (rowBlk_apply V c t a k o r hr).trans (hM r k o))
    (fun b k => (keyBlk_apply V c t b k o ⟨128 * J.val + b.val, by have := J.isLt; have := b.isLt; omega⟩ (by rw [hJ])).trans (hM _ k o))

/-! ## What an odd point writes back -/

/-- At an odd point the block written back is the feature array's block. -/
theorem flushed1_2_eq (c : Dev nD) (x : Cert.Spec.SX.Idx → EReal) (T : Cert.Spec.ST.Idx → EReal)
    (hM : ∀ (b : Fin 256) (k : Fin 8) (o : Fin 128), V c main_v3 (ix3 b k o) = Cert.Spec.proj x T b o k)
    (t : Fin cfg1.N) (hf : (cfg1.win 2).flush t = true) :
    (dat1 (F := Ideal) V c).flushed 2 t = ((cfg1.win 2).blk t).view.read (Elt Ideal) (Cert.Spec.featArr x T) := by
  have h1 : t.val % 2 = 1 := (flush1_2 t).mp hf
  have h4 := lt_four t
  obtain ⟨-, -, -, -, -, -, e0, e1⟩ := idx_facts1 t
  show (cfg1.win 2).cut (grid1.coords t) ((dat1 (F := Ideal) V c).after 2 t) = _
  rw [after1_2, outs_odd V c t h1]
  refine funext fun (j : S128x128.Idx) => ?_
  obtain ⟨a, o, rfl⟩ : ∃ (a : Fin 128) (o : Fin 128), j = ix2 a o := ⟨j 0, j 1, eq_ix2 j⟩
  have ha := a.isLt
  have hr : (⟨128 * (t.val / 2) + a.val, by omega⟩ : Fin 256).val = 128 * (t.val / 2) + a.val := rfl
  refine (fin_apply _ a o).trans ?_
  refine (congrArg (· - Ideal.ofBits .f32 0x3F800000#32)
    ((stage_tile V c x T hM t 1 h1 a ⟨128 * (t.val / 2) + a.val, by omega⟩ hr o _).trans
      (congrArg (· + Cert.Spec.tileSum x T ⟨128 * (t.val / 2) + a.val, by omega⟩ 1 o)
        ((stage_tile V c x T hM ⟨t.val - 1, Nat.lt_of_le_of_lt (Nat.sub_le _ _) t.isLt⟩ 0
            (show (t.val - 1) % 2 = 0 by omega) a ⟨128 * (t.val / 2) + a.val, by omega⟩
            (show 128 * (t.val / 2) + a.val = 128 * ((t.val - 1) / 2) + a.val by omega) o _).trans
          (congrArg (· + Cert.Spec.tileSum x T ⟨128 * (t.val / 2) + a.val, by omega⟩ 0 o) (zero_apply a o)))))).trans ?_
  refine (Cert.Spec.featK_eq_feat x T ⟨128 * (t.val / 2) + a.val, by omega⟩ o).trans ?_
  rw [View.read_apply]
  show _ = Cert.Spec.featArr x T (((cfg1.win 2).blk t).view.emb (ix2 a o))
  have e : ((cfg1.win 2).blk t).view.emb (ix2 a o) = ix2 (⟨128 * (t.val / 2) + a.val, by omega⟩ : Fin 256) o :=
    funext fun d => Fin.ext (by
      match d with
      | ⟨0, _⟩ => show win1_2.index t (0 : Fin 2) * 128 + 1 * a.val = 128 * (t.val / 2) + a.val; rw [e0]; omega
      | ⟨1, _⟩ => show win1_2.index t (1 : Fin 2) * 128 + 1 * o.val = o.val; rw [e1]; omega)
  rw [e]
  rfl

/-- An index of the feature array is in point t's block iff each coordinate is in the block's range on its axis. -/
theorem mem_blk1_2 (t : Fin cfg1.N) (i : S256x128.Idx) :
    i ∈ ((cfg1.win 2).blk t).view.set ↔ ∀ d : Fin 2, win1_2.index t d * S128x128.size d ≤ (i d).val ∧ (i d).val < win1_2.index t d * S128x128.size d + S128x128.size d := by
  show i ∈ ((View.whole main_v4).slice (win1_2.rect t)).set ↔ _
  rw [View.set_slice_whole, Rect.mem_set_unit]
  exact Iff.rfl

/-- Every index of the feature array is in the block of the odd point of its row block. -/
theorem cover1_2 (i : S256x128.Idx) :
    ∃ t : Fin cfg1.N, (cfg1.win 2).flush t = true ∧ i ∈ ((cfg1.win 2).blk t).view.set := by
  have hi0 : (i 0).val < 256 := (i 0).isLt
  have hi1 : (i 1).val < 128 := (i 1).isLt
  have hN : cfg1.N = 4 := N_1
  have ht : 2 * ((i 0).val / 128) + 1 < cfg1.N := by rw [hN]; omega
  obtain ⟨-, -, -, -, -, -, e0, e1⟩ := idx_facts1 ⟨2 * ((i 0).val / 128) + 1, ht⟩
  refine ⟨⟨2 * ((i 0).val / 128) + 1, ht⟩, (flush1_2 _).mpr (show (2 * ((i 0).val / 128) + 1) % 2 = 1 by omega), ?_⟩
  rw [mem_blk1_2]
  intro d
  match d with
  | ⟨0, _⟩ =>
    show win1_2.index ⟨2 * ((i 0).val / 128) + 1, ht⟩ (0 : Fin 2) * 128 ≤ (i 0).val ∧ (i 0).val < win1_2.index ⟨2 * ((i 0).val / 128) + 1, ht⟩ (0 : Fin 2) * 128 + 128
    rw [e0]; show (2 * ((i 0).val / 128) + 1) / 2 * 128 ≤ (i 0).val ∧ (i 0).val < (2 * ((i 0).val / 128) + 1) / 2 * 128 + 128; omega
  | ⟨1, _⟩ =>
    show win1_2.index ⟨2 * ((i 0).val / 128) + 1, ht⟩ (1 : Fin 2) * 128 ≤ (i 1).val ∧ (i 1).val < win1_2.index ⟨2 * ((i 0).val / 128) + 1, ht⟩ (1 : Fin 2) * 128 + 128
    rw [e1]; omega

/-! ## The array after the call -/

/-- The feature array after the pairwise call is the specification's. -/
theorem feat_arr (c : Dev nD) (x : Cert.Spec.SX.Idx → EReal) (T : Cert.Spec.ST.Idx → EReal)
    (hM : ∀ (b : Fin 256) (k : Fin 8) (o : Fin 128), V c main_v3 (ix3 b k o) = Cert.Spec.proj x T b o k) :
    ((dat1 (F := Ideal) V c).arrAt 2 cfg1.N : S256x128.Idx → EReal) = Cert.Spec.featArr x T :=
  (dat1 (F := Ideal) V c).arrAt_eq_of_cover 2 (Cert.Spec.featArr x T) (flushed1_2_eq V c x T hM) cover1_2

end Cert.KernelIdeal.Frm

end
-- ==== Proof.KI.Value.lean ====
import proofs.«122167_j66391604461943_1_alg».proof.Proof.KI.Run
import proofs.«122167_j66391604461943_1_alg».proof.Proof.KI.ValM
import proofs.«122167_j66391604461943_1_alg».proof.Proof.KI.ValC
import proofs.«122167_j66391604461943_1_alg».proof.Proof.Spec
import Idealize.ShloMosaic.Lib.StableHlo.Run

/-! # The kernel's result over the extended reals

After the last host stretch the result buffer holds the concatenation, along the feature axis, of the first input
(which nothing wrote) with the feature array the pairwise region left; and that array is the specification's: the
array the region read holds the projections (the matmul region's product, reshaped), and block by block the region
accumulates exp (− L1 distance) over the two key tiles and takes one off. -/

noncomputable section

namespace Cert.KernelIdeal.Frm

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The first input reaches the last host stretch as launched. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-- The result buffer at the end: the first input beside the specification's feature array of the two inputs. -/
theorem result_eq (c : Dev nD) :
    W5 m c (Proc.devRef .tc main_v5)
      = concatenate S256x1152 1 [⟨S256x1024, m ((c : Thread nD τ).loc main_arg0)⟩,
          ⟨S256x128, Cert.Spec.featArr (m ((c : Thread nD τ).loc main_arg0)) (m ((c : Thread nD τ).loc main_arg1))⟩]
          concatenates_S256x1024_S256x128_S256x1152_d1 := by
  have e5 : W5 m c (Proc.devRef .tc main_v5)
      = concatenate S256x1152 1 [⟨S256x1024, W4 m c (Proc.devRef .tc main_arg0)⟩, ⟨S256x128, W4 m c (Proc.devRef .tc main_v4)⟩]
          concatenates_S256x1024_S256x128_S256x1152_d1 := by
    show StableHlo.after hostOps2 (W4 m c) (Proc.devRef .tc main_v5) = _
    after_results
  rw [e5, W4_main_arg0, W4_out, feat_arr (V3 m) c _ _ (samples_eq m c)]

end Cert.KernelIdeal.Frm

end
-- ==== Proof.RefValue.lean ====
import proofs.«122167_j66391604461943_1_alg».proof.Proof.Gen.ReferenceIdeal.Run
import proofs.«122167_j66391604461943_1_alg».proof.Proof.Gen.ReferenceIdeal.Read
import proofs.«122167_j66391604461943_1_alg».proof.Proof.Spec
import Idealize.ShloMosaic.PureOps.Ideal
import Idealize.ShloMosaic.Lib.ValueIdx
import Mathlib.Algebra.BigOperators.Fin

/-
  The reference computes the specification's feature array.

  Read one operation at a time: the flattened T at (n, o·8 + k) is T[n, o, k]; the product x · T2 reshaped to
  [256, 128, 8] at (b, o, k) is the projection proj b o k, because (b·128 + o)·8 + k = b·1024 + (o·8 + k); the two
  broadcasts put sample b's projection and sample a's side by side at (a, b, o, k); their difference's absolute value
  summed over k from zero is the distance, its negative's exponential summed over b from zero is the feature before
  the one is taken off.
-/

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Spec

/-- The column o·8 + k of the flattened T. -/
abbrev col (o : Fin 128) (k : Fin 8) : Fin 1024 := ⟨o.val * 8 + k.val, by omega⟩

/-- Row-major position (b, o, k) of [256, 128, 8] is position (b, o·8 + k) of [256, 1024]. -/
theorem idx_v2_eq (b : Fin 256) (o : Fin 128) (k : Fin 8) : idx_main_v2 (ix3 b o k) = ix2 b (col o k) :=
  funext fun d => Fin.ext (by
    have hb := b.isLt; have ho := o.isLt; have hk := k.isLt
    match d with
    | ⟨0, _⟩ => show ((b.val * 128 + o.val) * 8 + k.val) / 1024 = b.val; omega
    | ⟨1, _⟩ => show ((b.val * 128 + o.val) * 8 + k.val) % 1024 = o.val * 8 + k.val; omega)

/-- Row-major position (n, o·8 + k) of [1024, 1024] is position (n, o, k) of [1024, 128, 8]. -/
theorem idx_v0_eq (n : Fin 1024) (o : Fin 128) (k : Fin 8) : idx_main_v0 (ix2 n (col o k)) = ix3 n o k :=
  funext fun d => Fin.ext (by
    have hn := n.isLt; have ho := o.isLt; have hk := k.isLt
    match d with
    | ⟨0, _⟩ => show (n.val * 1024 + (o.val * 8 + k.val)) / 1024 = n.val; omega
    | ⟨1, _⟩ => show (n.val * 1024 + (o.val * 8 + k.val)) / 8 % 128 = o.val; omega
    | ⟨2, _⟩ => show (n.val * 1024 + (o.val * 8 + k.val)) % 8 = k.val; omega)

/-- The contraction reads row b of x at n … -/
theorem lidx_v1_eq (b : Fin 256) (m n : Fin 1024) : lidx_main_v1 (ix2 b m) n = ix2 b n :=
  funext fun d => Fin.ext (by match d with | ⟨0, _⟩ => rfl | ⟨1, _⟩ => rfl)

/-- … against column m of the flattened T at n. -/
theorem ridx_v1_eq (b : Fin 256) (m n : Fin 1024) : ridx_main_v1 (ix2 b m) n = ix2 n m :=
  funext fun d => Fin.ext (by match d with | ⟨0, _⟩ => rfl | ⟨1, _⟩ => rfl)

/-- The reshaped product at (b, o, k) is the projection. -/
theorem v2_at (x : (⟨S256x1024, .f32⟩ : BufTy).Contents (Elt Ideal)) (T : (⟨S1024x128x8, .f32⟩ : BufTy).Contents (Elt Ideal))
    (b : Fin 256) (o : Fin 128) (k : Fin 8) :
    val_main_v2 (F := Ideal) x T (ix3 b o k) = proj x T b o k := by
  rw [val_main_v2_apply, idx_v2_eq, val_main_v1_apply]
  unfold proj
  refine Finset.sum_congr rfl fun n _ => ?_
  rw [val_main_v0_apply, lidx_v1_eq, ridx_v1_eq, idx_v0_eq]

/-- The first broadcast pair reads sample b (the second coordinate) … -/
theorem idx_v5_eq (a b : Fin 256) (o : Fin 128) (k : Fin 8) : idx_main_v3 (idx_main_v5 (ix4 a b o k)) = ix3 b o k :=
  funext fun d => Fin.ext (by match d with | ⟨0, _⟩ => rfl | ⟨1, _⟩ => rfl | ⟨2, _⟩ => rfl)

/-- … the second pair sample a (the first coordinate). -/
theorem idx_v6_eq (a b : Fin 256) (o : Fin 128) (k : Fin 8) : idx_main_v4 (idx_main_v6 (ix4 a b o k)) = ix3 a o k :=
  funext fun d => Fin.ext (by match d with | ⟨0, _⟩ => rfl | ⟨1, _⟩ => rfl | ⟨2, _⟩ => rfl)

/-- The absolute difference at (a, b, o, k). -/
theorem v8_at (x : (⟨S256x1024, .f32⟩ : BufTy).Contents (Elt Ideal)) (T : (⟨S1024x128x8, .f32⟩ : BufTy).Contents (Elt Ideal))
    (a b : Fin 256) (o : Fin 128) (k : Fin 8) :
    val_main_v8 (F := Ideal) x T (ix4 a b o k) = eabs (proj x T b o k - proj x T a o k) := by
  rw [val_main_v8_apply, val_main_v7_apply, val_main_v5_apply, val_main_v6_apply, val_main_v3_apply, val_main_v4_apply,
    idx_v5_eq, idx_v6_eq, v2_at, v2_at]
  rfl

/-- The sum over the kernel dimensions runs along the last axis. -/
theorem idx_v9_eq (a b : Fin 256) (o : Fin 128) (k : Fin 8) : idx_main_v9 (ix3 a b o) k = ix4 a b o k :=
  funext fun d => Fin.ext (by match d with | ⟨0, _⟩ => rfl | ⟨1, _⟩ => rfl | ⟨2, _⟩ => rfl | ⟨3, _⟩ => rfl)

/-- exp (− distance) at (a, b, o). -/
theorem v11_at (x : (⟨S256x1024, .f32⟩ : BufTy).Contents (Elt Ideal)) (T : (⟨S1024x128x8, .f32⟩ : BufTy).Contents (Elt Ideal))
    (a b : Fin 256) (o : Fin 128) :
    val_main_v11 (F := Ideal) x T (ix3 a b o) = Ideal.exp (-(dist x T a b o)) := by
  rw [val_main_v11_apply, val_main_v10_apply, val_main_v9_apply, val_main_cst_apply]
  simp only [idx_v9_eq, v8_at]
  rw [Ideal.ofBits_def, Ideal.ofBits_zero_f32, zero_add]
  rfl

/-- The sum over the samples runs along the middle axis. -/
theorem idx_v12_eq (a : Fin 256) (o : Fin 128) (b : Fin 256) : idx_main_v12 (ix2 a o) b = ix3 a b o :=
  funext fun d => Fin.ext (by match d with | ⟨0, _⟩ => rfl | ⟨1, _⟩ => rfl | ⟨2, _⟩ => rfl)

/-- The reference's last array before the concatenation is the feature array. -/
theorem ref_feat (x : (⟨Cert.ReferenceIdeal.S256x1024, .f32⟩ : BufTy).Contents (Elt Ideal))
    (T : (⟨Cert.ReferenceIdeal.S1024x128x8, .f32⟩ : BufTy).Contents (Elt Ideal)) :
    Cert.ReferenceIdeal.Read.val_main_v14 (F := Ideal) x T = Cert.Spec.featArr x T := by
  funext i
  obtain ⟨a, o, rfl⟩ : ∃ (a : Fin 256) (o : Fin 128), i = ix2 a o := ⟨i 0, i 1, eq_ix2 i⟩
  rw [val_main_v14_apply, val_main_v12_apply, val_main_v13_apply, val_main_cst_1_apply, val_main_cst_0_apply]
  simp only [idx_v12_eq, v11_at]
  rw [Ideal.ofBits_def, Ideal.ofBits_def, Ideal.ofBits_zero_f32, zero_add]
  rfl

end Cert.ReferenceIdeal.RefValue

end
-- ==== Proof.lean ====
/-
  A minibatch-discrimination layer: samples x : [256, 1024] are projected by T : [1024, 128, 8] to
  M[b, o, k] = ∑ n, x[b, n] · T[n, o, k]; the feature c[a, o] = ∑ b, exp (− ∑ k, |M[b, o, k] − M[a, o, k]|) − 1 measures how
  close sample a is to the rest of the batch in feature o (the self term exp 0 = 1 taken off); the result is x with c
  appended along the feature axis.

  The kernel computes M by one matmul against T transposed and flattened so that its product reshapes to
  [sample, kernel dimension, feature]; a second, tiled kernel runs over pairs (query tile i, key tile j) of 128 samples,
  adds |M_i − M_j| over the eight kernel dimensions, sums exp (0 − ·) over the key tile into an accumulator that is
  zeroed at j = 0 and, at the last key tile, stored less one. The reference computes the same with one dot product,
  broadcasts, and two reductions. Over the extended reals the two agree index by index: |u − v| = |v − u| (by cases on
  the extended reals, no finiteness needed), 0 − s = − s, a sum of eight terms and a sum over 256 = 128 + 128 samples
  regrouped (addition on the extended reals is a commutative monoid), and both end in the same concatenation.

  Frames: each printed program runs to its end, faults nowhere and leaves its two inputs as launched. For the kernel (at
  the word level and idealized alike: the text is generic in the float instance) the run is composed of three host
  stretches and two kernel regions, each region entered from "every unscoped buffer at the boundary's contents"; the
  reference's frame is its run with the result dropped.
-/
import proofs.«122167_j66391604461943_1_alg».proof.Defs
import proofs.«122167_j66391604461943_1_alg».proof.Proof.Gen.Kernel
import proofs.«122167_j66391604461943_1_alg».proof.Proof.Gen.Kernel.Skeleton
import proofs.«122167_j66391604461943_1_alg».proof.Proof.Gen.Kernel.Launch
import proofs.«122167_j66391604461943_1_alg».proof.Proof.Gen.Kernel.Regions
import proofs.«122167_j66391604461943_1_alg».proof.Proof.Gen.Kernel.Points
import proofs.«122167_j66391604461943_1_alg».proof.Proof.Gen.KernelIdeal
import proofs.«122167_j66391604461943_1_alg».proof.Proof.Gen.KernelIdeal.Skeleton
import proofs.«122167_j66391604461943_1_alg».proof.Proof.Gen.KernelIdeal.Launch
import proofs.«122167_j66391604461943_1_alg».proof.Proof.Gen.KernelIdeal.Regions
import proofs.«122167_j66391604461943_1_alg».proof.Proof.Gen.KernelIdeal.Points
import proofs.«122167_j66391604461943_1_alg».proof.Proof.Gen.ReferenceIdeal
import proofs.«122167_j66391604461943_1_alg».proof.Proof.Gen.ReferenceIdeal.Run
import proofs.«122167_j66391604461943_1_alg».proof.Proof.Gen.ReferenceIdeal.Read
import proofs.«122167_j66391604461943_1_alg».proof.Proof.Gen.Pre_finite_inputs
import proofs.«122167_j66391604461943_1_alg».proof.Proof.K.Run
import proofs.«122167_j66391604461943_1_alg».proof.Proof.KI.Run
import proofs.«122167_j66391604461943_1_alg».proof.Proof.KI.Value
import proofs.«122167_j66391604461943_1_alg».proof.Proof.RefValue
import Idealize.ShloMosaic.Adequacy
import Idealize.ShloMosaic.Init

noncomputable section

namespace Cert.Proof

open Idealize.ShloMosaic Idealize.SL.Sem

/-- The word-level kernel runs to its end and leaves its inputs as launched. -/
theorem frame_k : @Cert.frame_Kernel Cert.Kernel.Gen.facts Cert.Pre_finite_inputs.Gen.facts :=
  fun m ρ _ => Cert.Kernel.Frm.frame m ρ

/-- So does the idealized kernel. -/
theorem frame_ki : @Cert.frame_KernelIdeal Cert.KernelIdeal.Gen.facts Cert.Pre_finite_inputs.Gen.facts :=
  fun m ρ _ => Cert.KernelIdeal.Frm.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The ideal pass rewrote nothing: the idealized kernel is the kernel's own text. -/
theorem preserves : Cert.preserves_Kernel_KernelIdeal := trivial

/-- From memories agreeing on the inputs both idealized programs end with the same result: the first input beside the
    specification's feature array. The kernel's side is its run read at the result buffer; the reference's is its run's
    term, whose feature stage is the specification's array too. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Frm.W5 m c (Proc.devRef .tc Cert.KernelIdeal.main_v5), Cert.KernelIdeal.Frm.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v15_eq (F := Ideal) _ _).trans ?_
  unfold Cert.ReferenceIdeal.Read.val_main_v15
  rw [Cert.ReferenceIdeal.RefValue.ref_feat]
  exact (Cert.KernelIdeal.Frm.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
